-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x7 : Shape := ⟨2, ![4194304, 7]⟩
abbrev S4194304 : Shape := ⟨1, ![4194304]⟩
abbrev S_ : Shape := ⟨0, ![]⟩

class Facts : Prop where
  bcast_S_S4194304x7 : S_.BroadcastsInDim S4194304x7 (![] : Fin 0 → Fin S4194304x7.rank)
  reducesTo_S4194304x7_S_d0_1 : S4194304x7.ReducesTo [0, 1] S_
  h_S_ : 0 < S_.numel

variable [Facts]

def fn {F : FTy → Type} [FloatOps F] (main_arg0 : FVec F S4194304x7 .f32) (main_arg1 : IVec S4194304 32) : IVec S_ 1 :=
  let main_v0 : FVec F S4194304x7 .f32 := Host.absf main_arg0
  let main_cst : FVec F S_ .f32 := constant S_ .f32 0x7F800000#32
  let main_v1 : FVec F S4194304x7 .f32 := broadcastInDim S4194304x7 ![] bcast_S_S4194304x7 main_cst
  let main_v2 : IVec S4194304x7 1 := cmpf .olt main_v0 main_v1
  let main_c : IVec S_ 1 := constantI S_ 1 1#1
  let main_v3 : IVec S_ 1 := (fun x v => Host.reduce IntOp.andi x v reducesTo_S4194304x7_S_d0_1 h_S_) main_v2 main_c
  main_v3
-- ==== Kernel.lean ====
abbrev S4194304x7 : Shape := ⟨2, ![4194304, 7]⟩
abbrev S4194304 : Shape := ⟨1, ![4194304]⟩
abbrev S7x4194304 : Shape := ⟨2, ![7, 4194304]⟩
abbrev S1x4194304 : Shape := ⟨2, ![1, 4194304]⟩
abbrev S16x128 : Shape := ⟨2, ![16, 128]⟩
abbrev S7x32768 : Shape := ⟨2, ![7, 32768]⟩
abbrev S1x32768 : Shape := ⟨2, ![1, 32768]⟩
abbrev S8x128 : Shape := ⟨2, ![8, 128]⟩
abbrev S32768 : Shape := ⟨1, ![32768]⟩
abbrev S1 : Shape := ⟨1, ![1]⟩
abbrev S1x1 : Shape := ⟨2, ![1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S4194304x7, .f32⟩
  | .hbm, ⟨1, _⟩ => ⟨S4194304, .i32⟩
  | .hbm, ⟨2, _⟩ => ⟨S7x4194304, .f32⟩
  | .hbm, ⟨3, _⟩ => ⟨S1x4194304, .i32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S7x32768, .f32⟩
  | .local _ .vmem, ⟨1, _⟩ => ⟨S7x32768, .f32⟩
  | .local _ .vmem, ⟨2, _⟩ => ⟨S1x32768, .i32⟩
  | .local _ .vmem, ⟨3, _⟩ => ⟨S1x32768, .i32⟩
  | .local _ .vmem, ⟨4, _⟩ => ⟨S8x128, .f32⟩
  | .local _ .vmem, ⟨5, _⟩ => ⟨S8x128, .f32⟩
  | _, _ => ⟨S4194304x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S7x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4194304x7_S7x4194304_1_0 : S4194304x7.Transposes [1, 0] S7x4194304
  shapeCasts_S4194304_S1x4194304 : S4194304.ShapeCasts S1x4194304
  inb_S8x128_S8x128_0_0 : ∀ a, (![0, 0] : Fin 2 → Nat) a + S8x128.size a ≤ S8x128.size a
  h_S8x128 : 0 < S8x128.numel
  inb_S7x32768_S7x32768_0_0 : ∀ a, (![0, 0] : Fin 2 → Nat) a + S7x32768.size a ≤ S7x32768.size a
  h_S7x32768 : 0 < S7x32768.numel
  shapeCasts_S7x32768_S7x32768 : S7x32768.ShapeCasts S7x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  reduces_S7x32768_S32768 : S7x32768.Reduces [0] S32768
  shapeCasts_S32768_S1x32768 : S32768.ShapeCasts S1x32768
  broadcasts_S1x32768_S7x32768 : S1x32768.Broadcasts S7x32768
  iota_S7x32768_d0_w32 : S7x32768.Iotas .tc 32 [0]
  reduces_S1x32768_S1 : S1x32768.Reduces [1] S1
  shapeCasts_S1_S1x1 : S1.ShapeCasts S1x1
  inpos_S1x1_p0_0 : ∀ a, (![0, 0] : Fin 2 → Nat) a < S1x1.size a
  iota_S8x128_d0_w32 : S8x128.Iotas .tc 32 [0]
  iota_S8x128_d1_w32 : S8x128.Iotas .tc 32 [1]
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x32768.size a ≤ S7x4194304.size a
  hwx0_0 : ∀ i : grid0.Coords, EltTy.bits .f32 = 32 ∨ (Rect.block (s := S7x4194304) S7x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x4194304.size a
  hwx0_1 : ∀ i : grid0.Coords, EltTy.bits .i32 = 32 ∨ (Rect.block (s := S1x4194304) S1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S7x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x7 : Shape := ⟨2, ![4194304, 7]⟩
abbrev S4194304 : Shape := ⟨1, ![4194304]⟩
abbrev S3 : Shape := ⟨1, ![3]⟩
abbrev S_ : Shape := ⟨0, ![]⟩
abbrev S4194304x1 : Shape := ⟨2, ![4194304, 1]⟩
abbrev S1x3 : Shape := ⟨2, ![1, 3]⟩
abbrev S4194304x3 : Shape := ⟨2, ![4194304, 3]⟩
abbrev S4194304x3x1 : Shape := ⟨3, ![4194304, 3, 1]⟩
abbrev S1 : Shape := ⟨1, ![1]⟩
abbrev S1x1x1 : Shape := ⟨3, ![1, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4194304x7, .f32⟩
  | .hbm, ⟨1, _⟩ => ⟨S4194304, .i32⟩
  | .hbm, ⟨2, _⟩ => ⟨S3, .i32⟩
  | .hbm, ⟨3, _⟩ => ⟨S_, .f32⟩
  | .hbm, ⟨4, _⟩ => ⟨S4194304, .f32⟩
  | .hbm, ⟨5, _⟩ => ⟨S_, .f32⟩
  | .hbm, ⟨6, _⟩ => ⟨S4194304, .f32⟩
  | .hbm, ⟨7, _⟩ => ⟨S4194304, .f32⟩
  | .hbm, ⟨8, _⟩ => ⟨S4194304x1, .f32⟩
  | .hbm, ⟨9, _⟩ => ⟨S4194304x7, .f32⟩
  | .hbm, ⟨10, _⟩ => ⟨S4194304x7, .f32⟩
  | .hbm, ⟨11, _⟩ => ⟨S4194304x7, .f32⟩
  | .hbm, ⟨12, _⟩ => ⟨S_, .f32⟩
  | .hbm, ⟨13, _⟩ => ⟨S4194304, .f32⟩
  | .hbm, ⟨14, _⟩ => ⟨S4194304x1, .f32⟩
  | .hbm, ⟨15, _⟩ => ⟨S4194304x7, .f32⟩
  | .hbm, ⟨16, _⟩ => ⟨S4194304x7, .f32⟩
  | .hbm, ⟨17, _⟩ => ⟨S4194304x1, .i32⟩
  | .hbm, ⟨18, _⟩ => ⟨S1x3, .i32⟩
  | .hbm, ⟨19, _⟩ => ⟨S4194304x3, .i32⟩
  | .hbm, ⟨20, _⟩ => ⟨S4194304x3, .i32⟩
  | .hbm, ⟨21, _⟩ => ⟨S4194304x3, .i32⟩
  | .hbm, ⟨22, _⟩ => ⟨S_, .i32⟩
  | .hbm, ⟨23, _⟩ => ⟨S4194304x3, .i32⟩
  | .hbm, ⟨24, _⟩ => ⟨S4194304x3, .i1⟩
  | .hbm, ⟨25, _⟩ => ⟨S_, .i32⟩
  | .hbm, ⟨26, _⟩ => ⟨S4194304x3, .i32⟩
  | .hbm, ⟨27, _⟩ => ⟨S4194304x3, .i1⟩
  | .hbm, ⟨28, _⟩ => ⟨S4194304x3, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S4194304x3, .i32⟩
  | .hbm, ⟨33, _⟩ => ⟨S4194304x3, .i32⟩
  | .hbm, ⟨34, _⟩ => ⟨S_, .i32⟩
  | .hbm, ⟨35, _⟩ => ⟨S4194304x3, .i32⟩
  | .hbm, ⟨36, _⟩ => ⟨S4194304x3, .i32⟩
  | .hbm, ⟨37, _⟩ => ⟨S_, .i32⟩
  | .hbm, ⟨38, _⟩ => ⟨S4194304x3, .i32⟩
  | .hbm, ⟨39, _⟩ => ⟨S4194304x3, .i1⟩
  | .hbm, ⟨40, _⟩ => ⟨S_, .i32⟩
  | .hbm, ⟨41, _⟩ => ⟨S4194304x3, .i32⟩
  | .hbm, ⟨42, _⟩ => ⟨S4194304x3, .i32⟩
  | .hbm, ⟨43, _⟩ => ⟨S4194304x3, .i32⟩
  | .hbm, ⟨44, _⟩ => ⟨S4194304x3x1, .i32⟩
  | .hbm, ⟨45, _⟩ => ⟨S1, .i32⟩
  | .hbm, ⟨46, _⟩ => ⟨S_, .i32⟩
  | .hbm, ⟨47, _⟩ => ⟨S4194304x3x1, .i32⟩
  | .hbm, ⟨48, _⟩ => ⟨S4194304x3x1, .i1⟩
  | .hbm, ⟨49, _⟩ => ⟨S1x1x1, .i32⟩
  | .hbm, ⟨50, _⟩ => ⟨S4194304x3x1, .i32⟩
  | .hbm, ⟨51, _⟩ => ⟨S4194304x3x1, .i1⟩
  | .hbm, ⟨52, _⟩ => ⟨S4194304x3x1, .i1⟩
  | .hbm, ⟨53, _⟩ => ⟨S_, .i1⟩
  | .hbm, ⟨54, _⟩ => ⟨S4194304x3, .i1⟩
  | .hbm, ⟨55, _⟩ => ⟨S4194304x3, .f32⟩
  | .hbm, ⟨56, _⟩ => ⟨S_, .f32⟩
  | .hbm, ⟨57, _⟩ => ⟨S4194304x3, .f32⟩
  | .hbm, ⟨58, _⟩ => ⟨S4194304x3, .f32⟩
  | .hbm, ⟨59, _⟩ => ⟨S_, .f32⟩
  | .hbm, ⟨60, _⟩ => ⟨S4194304x3, .f32⟩
  | .hbm, ⟨61, _⟩ => ⟨S4194304x3, .f32⟩
  | .hbm, ⟨62, _⟩ => ⟨S4194304x3, .f32⟩
  | .hbm, ⟨63, _⟩ => ⟨S_, .f32⟩
  | .hbm, ⟨64, _⟩ => ⟨S_, .f32⟩
  | .hbm, ⟨65, _⟩ => ⟨S4194304x3, .f32⟩
  | .hbm, ⟨66, _⟩ => ⟨S4194304x3, .f32⟩
  | .hbm, ⟨67, _⟩ => ⟨S_, .f32⟩
  | .hbm, ⟨68, _⟩ => ⟨S4194304, .f32⟩
  | .hbm, ⟨69, _⟩ => ⟨S4194304, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S4194304x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_c_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v22 : Ref sig .tc := ⟨.hbm, 58, rfl⟩
abbrev main_cst_6 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_v26 : Ref sig .tc := ⟨.hbm, 66, rfl⟩
abbrev main_cst_8 : Ref sig .tc := ⟨.hbm, 67, rfl⟩
abbrev main_v27 : Ref sig .tc := ⟨.hbm, 68, rfl⟩
abbrev main_v28 : Ref sig .tc := ⟨.hbm, 69, rfl⟩
abbrev main_cst_9 : Ref sig .tc := ⟨.hbm, 70, rfl⟩
abbrev main_v29 : Ref sig .tc := ⟨.hbm, 71, rfl⟩
abbrev main_cst_10 : Ref sig .tc := ⟨.hbm, 72, rfl⟩
abbrev main_v30 : Ref sig .tc := ⟨.hbm, 73, rfl⟩

abbrev nD : Nat := 1
abbrev τ : Topo := Topo.v7x

variable {F : FTy → Type} [FloatOps F]

class Facts₀ : Prop where
  reducesTo_S4194304x7_S4194304_d1 : S4194304x7.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x7_0_1 : S4194304x1.BroadcastsInDim S4194304x7 (![0, 1] : Fin 2 → Fin S4194304x7.rank)
  bcast_S3_S1x3_1 : S3.BroadcastsInDim S1x3 (![1] : Fin 1 → Fin S1x3.rank)
  bcast_S4194304x1_S4194304x3_0_1 : S4194304x1.BroadcastsInDim S4194304x3 (![0, 1] : Fin 2 → Fin S4194304x3.rank)
  bcast_S1x3_S4194304x3_0_1 : S1x3.BroadcastsInDim S4194304x3 (![0, 1] : Fin 2 → Fin S4194304x3.rank)
  bcast_S_S4194304x3 : S_.BroadcastsInDim S4194304x3 (![] : Fin 0 → Fin S4194304x3.rank)
  shapeCasts_S4194304x3_S4194304x3x1 : S4194304x3.ShapeCasts S4194304x3x1
  bcast_S_S4194304x3x1 : S_.BroadcastsInDim S4194304x3x1 (![] : Fin 0 → Fin S4194304x3x1.rank)
  bcast_S1_S1x1x1_2 : S1.BroadcastsInDim S1x1x1 (![2] : Fin 1 → Fin S1x1x1.rank)
  bcast_S1x1x1_S4194304x3x1_0_1_2 : S1x1x1.BroadcastsInDim S4194304x3x1 (![0, 1, 2] : Fin 3 → Fin S4194304x3x1.rank)
  reducesTo_S4194304x3x1_S4194304x3_d2 : S4194304x3x1.ReducesTo [2] S4194304x3
  reducesTo_S4194304x3_S4194304_d1 : S4194304x3.ReducesTo [1] S4194304
  reducesTo_S4194304_S_d0 : S4194304.ReducesTo [0] S_
  gather_S4194304x7_S4194304x3x1_S4194304x3_n_1_0_0_1_2_11_wf : GatherDims.WF S4194304x7 S4194304x3x1 S4194304x3 [] [1] [0] [1] [0] 2 ![1, 1]

variable [Facts₀]

def gather_S4194304x7_S4194304x3x1_S4194304x3_n_1_0_0_1_2_11 : GatherDims S4194304x7 S4194304x3x1 S4194304x3 where
  offsetDims := []
  collapsedSliceDims := [1]
  operandBatchingDims := [0]
  startIndicesBatchingDims := [0]
  startIndexMap := [1]
  indexVectorDim := 2
  sliceSizes := ![1, 1]
  wf := gather_S4194304x7_S4194304x3x1_S4194304x3_n_1_0_0_1_2_11_wf

class Facts : Prop extends Facts₀ where

variable [Facts]
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.Spec.lean ====
/-
  The loss both programs compute, as one function of the two argument arrays.

  For a row of seven logits with probabilities p (the row-wise softmax: each entry's exponential of its distance
  to the row's maximum, over the row's sum of those exponentials) and a 32-bit target word t, the three neighbour
  classes are the words t - 1, t, t + 1 (word addition: it may wrap). A class word w is valid when 0 ≤ w < 7 as a
  signed integer, and it is clipped into [0, 6]. The row's loss is

      - Σ_{k = -1, 0, 1}  (log (p[clip (t + k)] + ε) if t + k is valid, else 0),

  and the result is the sum of the rows' losses over 2^22 rows, divided by the constant 2^22 (kept as the
  float word both programs print). Everything is read over the extended reals; only 0 + x = x and the
  commutative-monoid laws of + are ever used, so no finiteness is needed.
-/
import Idealize.ShloMosaic.PureOps.Ideal
import Idealize.ShloMosaic.PureOps.Ideal.Laws
import Idealize.ShloMosaic.Lib.ValueIdx
import Idealize.ShloMosaic.Lib.StableHlo.Predicate
import proofs.«405338_j9732395893213_2_alg».proof.Proof.LibDenseRows

noncomputable section

open scoped BigOperators

namespace Pom

open Idealize.ShloMosaic Idealize.ShloMosaic.ValueIdx DenseRows

/-- The number of rows. -/
abbrev NB : Nat := 4194304

/-- The three neighbour offsets -1, 0, +1 as 32-bit words. -/
def offW : Fin 3 → BitVec 32 := ![4294967295#32, 0#32, 1#32]

/-- A class word is valid when it is a class number: 0 ≤ w < 7, signed. -/
def validW (w : BitVec 32) : BitVec 1 := IntOp.andi (IntOp.cmpi .sge w 0#32) (IntOp.cmpi .slt w 7#32)

/-- A class word clipped into [0, 6], signed. -/
def clipW (w : BitVec 32) : BitVec 32 := IntOp.minsi 6#32 (IntOp.maxsi 0#32 w)

/-- The clipped word is a class number. -/
theorem clipW_toNat_le (w : BitVec 32) : (clipW w).toNat ≤ 6 := by
  unfold clipW IntOp.minsi IntOp.maxsi
  by_cases hw : w.slt 0#32 = true
  · simp only [hw, if_true]
    decide
  · simp only [hw, Bool.false_eq_true, if_false]
    by_cases h6 : (6#32 : BitVec 32).slt w = true
    · simp only [h6, if_true]; decide
    · simp only [h6, Bool.false_eq_true, if_false]
      simp only [BitVec.slt, decide_eq_true_eq, BitVec.toInt_eq_toNat_cond] at hw h6
      have h60 : (6#32 : BitVec 32).toNat = 6 := rfl
      have h00 : (0#32 : BitVec 32).toNat = 0 := rfl
      rw [h60] at h6
      rw [h00] at hw
      have := w.isLt
      split at hw <;> split at h6 <;> omega

/-- The clipped word as a class. -/
def clipIdx (w : BitVec 32) : Fin 7 := ⟨(clipW w).toNat, by have := clipW_toNat_le w; omega⟩

theorem clipIdx_val (w : BitVec 32) : (clipIdx w).val = (clipW w).toNat := rfl

/-- The clipped word read signed is its class number. -/
theorem clipW_toInt (w : BitVec 32) : (clipW w).toInt = ((clipW w).toNat : Int) :=
  StableHlo.Predicate.toInt_eq_toNat_of_lt (by have := clipW_toNat_le w; omega)

/-- The small constant added under the logarithm, as the float word both programs print. -/
def eps : EReal := Ideal.ofBits .f32 0x2EDBE6FF#32

/-- One neighbour's term: the logarithm of the probability of the clipped class plus ε when the class word is
    valid, else 0. -/
def logTerm (p : Fin 7 → EReal) (w : BitVec 32) : EReal :=
  Scalar.select (validW w) (Ideal.log (p (clipIdx w) + eps)) 0

/-- A row's loss from its probabilities and its target word. -/
def perSample (p : Fin 7 → EReal) (t : BitVec 32) : EReal := -(∑ k : Fin 3, logTerm p (IntOp.addi t (offW k)))

/-- Row b's loss from the logits matrix and the targets. -/
def rowLoss (Z : Mat NB 7) (T : IVec ⟨1, ![NB]⟩ 32) (b : Fin NB) : EReal :=
  perSample (fun c => softmaxRows Z (ix2 b c)) (T (ix1 b))

/-- The result: the rows' losses summed, over the constant 2^22 as printed. -/
def total (Z : Mat NB 7) (T : IVec ⟨1, ![NB]⟩ 32) : EReal :=
  Ideal.div (∑ b : Fin NB, rowLoss Z T b) (Ideal.ofBits .f32 0x4A800000#32)

/-- A sum over the seven classes of p masked to the one class equal to the clipped word is p at that class. -/
theorem oneHot_sum (p : Fin 7 → EReal) (w : BitVec 32) :
    ∑ c : Fin 7, Scalar.select (IntOp.cmpi .eq (BitVec.ofNat 32 c.val) (clipW w)) (p c) 0 = p (clipIdx w) := by
  rw [Finset.sum_eq_single (clipIdx w)]
  · have : IntOp.cmpi .eq (BitVec.ofNat 32 (clipIdx w).val) (clipW w) = 1#1 := by
      rw [StableHlo.Predicate.cmpi_eq_iff, clipIdx_val, BitVec.ofNat_toNat, BitVec.setWidth_eq]
    rw [this]; rfl
  · intro c _ hc
    have : IntOp.cmpi .eq (BitVec.ofNat 32 c.val) (clipW w) ≠ 1#1 := by
      rw [Ne, StableHlo.Predicate.cmpi_eq_iff]
      intro h
      apply hc
      apply Fin.ext
      rw [clipIdx_val, ← h, BitVec.toNat_ofNat]
      have := c.isLt
      omega
    rw [eq_zero_of_ne_one this]; rfl
  · intro h; exact absurd (Finset.mem_univ _) h

end Pom

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«405338_j9732395893213_2_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.KDefs.lean ====
/-
  What one grid point adds to the output tile, as a function of the point's two input blocks: the definitions.

  A block of logits X holds seven classes down the rows and 32768 samples along the lanes; read as a matrix of
  32768 rows of seven classes (rowsOf), each lane's column is one sample's row of logits. The block's loss is the
  sum over its lanes of the sample's loss (Spec: perSample of the row-wise softmax of that matrix and the lane's
  target word). The body's last store writes the composed payload `stored`; StoredSpec says what it is slot by slot.
-/
import proofs.«405338_j9732395893213_2_alg».proof.Proof.Spec
import proofs.«405338_j9732395893213_2_alg».proof.Proof.LibDenseForms
import proofs.«405338_j9732395893213_2_alg».proof.Proof.Gen.KernelIdeal.Skeleton

noncomputable section

open scoped BigOperators

namespace Cert.KernelIdeal.KForms

open Cert.KernelIdeal Cert.KernelIdeal.Gen Idealize.ShloMosaic Idealize.ShloMosaic.ValueIdx DenseRows

/-- A block with classes down the rows, read as a matrix of 32768 samples by seven classes. -/
def rowsOf (X : Vec Ideal S7x32768 .f32) : Mat 32768 7 := fun i => X (ix2 (i 1) (i 0))

/-- The block's loss: the sum over its lanes of each sample's loss. -/
def blockLoss (X : Vec Ideal S7x32768 .f32) (Tv : Vec Ideal S1x32768 .i32) : EReal :=
  ∑ j : Fin 32768, Pom.perSample (fun c => softmaxRows (rowsOf X) (ix2 j c)) (Tv (ix2 (0 : Fin 1) j))

/-- The value the body's last store writes at inner coordinate n, from the two input blocks and the tile's
    contents acc, as the body's payloads compose. -/
def stored (n : ℕ) (X : Vec Ideal S7x32768 .f32) (Tv : Vec Ideal S1x32768 .i32) (acc : Vec Ideal S8x128 .f32) :
    FVec Ideal S8x128 .f32 :=
  k0_pay1 (F := Ideal) (BitVec.ofNat 32 n)
    (k0_pay10 (k0_pay3 Tv) (k0_pay4 X) (iota .tc S7x32768 32 [0] iota_S7x32768_d0_w32) (k0_pay5 (F := Ideal)) (k0_pay7 Tv)
      (k0_pay8 X Tv) (k0_pay9 (F := Ideal)))
    (k0_pay12 (k0_pay3 Tv))
    (k0_pay13 (k0_pay3 Tv) (k0_pay4 X) (iota .tc S7x32768 32 [0] iota_S7x32768_d0_w32))
    (k0_pay14 (F := Ideal)) acc

/-- The stored tile slot by slot: the tile's entry plus the block's loss in the slot whose flat position r * 128 + q
    is n, plus zero in every other slot. -/
def StoredSpec : Prop :=
  ∀ (n : ℕ), n < 64 → ∀ (X : Vec Ideal S7x32768 .f32) (Tv : Vec Ideal S1x32768 .i32) (acc : Vec Ideal S8x128 .f32)
    (r : Fin 8) (q : Fin 128),
    stored n X Tv acc (ix2 r q) = acc (ix2 r q) + (if r.val * 128 + q.val = n then blockLoss X Tv else 0)

end Cert.KernelIdeal.KForms

end
-- ==== Proof.KForms.lean ====
/-
  What one grid point adds to the output tile, as a function of the point's two input blocks.

  A block of logits X holds seven classes down the rows and 32768 samples along the lanes; read as a matrix of
  32768 rows of seven classes (rowsOf), each lane's column is one sample's row of logits. The block's loss is the
  sum over its lanes of the sample's loss (Spec: perSample of the row-wise softmax of that matrix and the lane's
  target word). The body adds that one number into the slot of the 8 x 128 tile whose flat position
  row * 128 + lane equals the point's inner coordinate n, and zero into every other slot.
-/
import proofs.«405338_j9732395893213_2_alg».proof.Proof.Spec
import proofs.«405338_j9732395893213_2_alg».proof.Proof.LibDenseForms
import proofs.«405338_j9732395893213_2_alg».proof.Proof.Gen.KernelIdeal.Skeleton
import proofs.«405338_j9732395893213_2_alg».proof.Proof.KDefs

noncomputable section

open scoped BigOperators

namespace Cert.KernelIdeal.KForms

open Cert.KernelIdeal Cert.KernelIdeal.Gen Idealize.ShloMosaic Idealize.ShloMosaic.ValueIdx DenseRows

/-! ## Reductions down the rows, kept as one row and broadcast down

The block's reductions run over axis 0 (the classes) and leave one value per lane. Read through the transposed
matrix, whose rows are the lanes, a column's maximum is a row's maximum and a column's sum a row's sum. -/

/-- A matrix with its two axes exchanged. -/
def tr {n m : Nat} (Z : FVec Ideal (⟨2, ![n, m]⟩ : Shape) .f32) : Mat m n := fun i => Z (ix2 (i 1) (i 0))

theorem tr_apply {n m : Nat} (Z : FVec Ideal (⟨2, ![n, m]⟩ : Shape) .f32) (q : Fin m) (p : Fin n) :
    tr Z (ix2 q p) = Z (ix2 p q) := rfl

/-- The reduced index q with row k put back is (k, q). -/
theorem lift_col {n m : Nat} (h : Shape.Reduces (⟨2, ![n, m]⟩ : Shape) [(0 : Fin 2)] (⟨1, ![m]⟩ : Shape)) (q : Fin m)
    (k : Fin ((⟨2, ![n, m]⟩ : Shape).size 0)) : h.lift (ix1 q) k = ix2 (⟨k.val, k.isLt⟩ : Fin n) q := by
  funext c; apply Fin.ext
  fin_cases c <;> rfl

/-- The maximum down a column from minus infinity is the transposed matrix's row maximum. -/
theorem colMax_eq {n m : Nat} (Z : FVec Ideal (⟨2, ![n, m]⟩ : Shape) .f32)
    (h : Shape.Reduces (⟨2, ![n, m]⟩ : Shape) [(0 : Fin 2)] (⟨1, ![m]⟩ : Shape))
    (hφ : FKind.Formats .f32) (hacc : (0xFF800000#32 : BitVec 32) = FKind.maximumf.neutral .f32 hφ) (q : Fin m) :
    multiReduction .maximumf [(0 : Fin 2)] (⟨1, ![m]⟩ : Shape) Z 0xFF800000#32 h hφ hacc (ix1 q) = rowMax (tr Z) q := by
  rw [Ideal.multiReduction_maximumf_single]
  unfold rowMax
  show Finset.fold max (Ideal.ofBits .f32 0xFF800000#32) (Z ∘ h.lift (ix1 q)) (Finset.univ : Finset (Fin n)) = _
  rw [ofBits_neg_inf]
  exact congrArg (fun f => Finset.fold max ⊥ f Finset.univ) (funext fun k => congrArg Z (lift_col h q k))

/-- The sum down a column from zero is the transposed matrix's row sum. -/
theorem colSum_eq {n m : Nat} (E : FVec Ideal (⟨2, ![n, m]⟩ : Shape) .f32)
    (h : Shape.Reduces (⟨2, ![n, m]⟩ : Shape) [(0 : Fin 2)] (⟨1, ![m]⟩ : Shape))
    (hφ : FKind.Formats .f32) (hacc : (0x00000000#32 : BitVec 32) = FKind.add.neutral .f32 hφ) (q : Fin m) :
    multiReduction .add [(0 : Fin 2)] (⟨1, ![m]⟩ : Shape) E 0x00000000#32 h hφ hacc (ix1 q) = ∑ c : Fin n, E (ix2 c q) := by
  rw [Ideal.multiReduction_add_single]
  show ∑ k : Fin n, E (h.lift (ix1 q) k) = _
  exact Finset.sum_congr rfl fun k _ => congrArg E (lift_col h q k)

/-- A vector cast to one row and broadcast down the rows reads, at (p, q), the vector at q. -/
theorem row_vector_form {n m : Nat} (v : Col m) (hc : (⟨1, ![m]⟩ : Shape).ShapeCasts ⟨2, ![1, m]⟩)
    (hb : (⟨2, ![1, m]⟩ : Shape).Broadcasts ⟨2, ![n, m]⟩) (p : Fin n) (q : Fin m) :
    broadcastTo (⟨2, ![n, m]⟩ : Shape) (shapeCast (⟨2, ![1, m]⟩ : Shape) v hc) hb (ix2 p q) = v (ix1 q) :=
  (broadcastTo_1b_ab_apply _ hb p q).trans (shapeCast_a_1a_apply v hc 0 q)

/-- The vector unit's softmax down the columns of a block: the column maximum kept as one row and subtracted, the
    exponential, the column sum kept as one row, the quotient. Read at (p, q) it is the row-wise softmax of the
    transposed matrix at (q, p). -/
theorem softmax_cols_form {n m : Nat} (Z : FVec Ideal (⟨2, ![n, m]⟩ : Shape) .f32)
    (h : Shape.Reduces (⟨2, ![n, m]⟩ : Shape) [(0 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![1, m]⟩) (hb : (⟨2, ![1, m]⟩ : Shape).Broadcasts ⟨2, ![n, m]⟩)
    (p : Fin n) (q : Fin m) :
    divf
      (exp (subf Z (broadcastTo (⟨2, ![n, m]⟩ : Shape) (shapeCast (⟨2, ![1, m]⟩ : Shape)
        (multiReduction .maximumf [(0 : Fin 2)] (⟨1, ![m]⟩ : Shape) Z 0xFF800000#32 h hφ₁ hmax) hc) hb)))
      (broadcastTo (⟨2, ![n, m]⟩ : Shape) (shapeCast (⟨2, ![1, m]⟩ : Shape)
        (multiReduction .add [(0 : Fin 2)] (⟨1, ![m]⟩ : Shape)
          (exp (subf Z (broadcastTo (⟨2, ![n, m]⟩ : Shape) (shapeCast (⟨2, ![1, m]⟩ : Shape)
            (multiReduction .maximumf [(0 : Fin 2)] (⟨1, ![m]⟩ : Shape) Z 0xFF800000#32 h hφ₁ hmax) hc) hb)))
          0x00000000#32 h hφ₂ hadd) hc) hb) (ix2 p q)
      = softmaxRows (tr Z) (ix2 q p) := by
  have hE : ∀ (a : Fin n) (b : Fin m),
      exp (subf Z (broadcastTo (⟨2, ![n, m]⟩ : Shape) (shapeCast (⟨2, ![1, m]⟩ : Shape)
        (multiReduction .maximumf [(0 : Fin 2)] (⟨1, ![m]⟩ : Shape) Z 0xFF800000#32 h hφ₁ hmax) hc) hb)) (ix2 a b)
        = rowExp (tr Z) (ix2 b a) := by
    intro a b
    show Ideal.exp (Z (ix2 a b) - broadcastTo (⟨2, ![n, m]⟩ : Shape) (shapeCast (⟨2, ![1, m]⟩ : Shape)
      (multiReduction .maximumf [(0 : Fin 2)] (⟨1, ![m]⟩ : Shape) Z 0xFF800000#32 h hφ₁ hmax) hc) hb (ix2 a b))
        = Ideal.exp (Z (ix2 a b) - rowMax (tr Z) b)
    rw [row_vector_form, colMax_eq]
  generalize exp (subf Z (broadcastTo (⟨2, ![n, m]⟩ : Shape) (shapeCast (⟨2, ![1, m]⟩ : Shape)
        (multiReduction .maximumf [(0 : Fin 2)] (⟨1, ![m]⟩ : Shape) Z 0xFF800000#32 h hφ₁ hmax) hc) hb)) = E at hE ⊢
  show Ideal.div (E (ix2 p q)) (broadcastTo (⟨2, ![n, m]⟩ : Shape) (shapeCast (⟨2, ![1, m]⟩ : Shape)
      (multiReduction .add [(0 : Fin 2)] (⟨1, ![m]⟩ : Shape) E 0x00000000#32 h hφ₂ hadd) hc) hb (ix2 p q))
    = Ideal.div (rowExp (tr Z) (ix2 q p)) (∑ c : Fin n, rowExp (tr Z) (ix2 q c))
  rw [row_vector_form, colSum_eq, hE p q]
  exact congrArg _ (Finset.sum_congr rfl fun c _ => hE c q)

/-! ## The probabilities -/

/-- The body's quotient is the column-wise softmax of the block: at class c and lane j, the row-wise softmax of the
    block read as a matrix of samples by classes, at (j, c). -/
theorem pay4_apply (X : Vec Ideal S7x32768 .f32) (c : Fin 7) (j : Fin 32768) :
    k0_pay4 X (ix2 c j) = softmaxRows (rowsOf X) (ix2 j c) := by
  unfold k0_pay4
  rw [shapeCast_self X]
  exact softmax_cols_form X _ _ _ _ _ _ _ c j

/-! ## One neighbour's term -/

/-- A float constant of the body is the extended real its word encodes. -/
theorem scalar_ofBits (φ : FTy) (b : BitVec φ.bits) : Scalar.ofBits (F := Ideal) φ b = Ideal.ofBits φ b := rfl

/-- A logarithm at an index is the logarithm of the element. -/
theorem log_apply {s : Shape} {φ : FTy} (a : FVec Ideal s φ) (i : s.Idx) : log a i = Ideal.log (a i) := rfl

/-- The target words, cast to their own shape. -/
theorem pay3_eq (Tv : Vec Ideal S1x32768 .i32) : k0_pay3 (F := Ideal) Tv = Tv := by
  unfold k0_pay3
  exact shapeCast_self Tv _

/-- The sum down the classes of the probabilities masked to the class equal to the clipped word is, at lane j, the
    probability of the clipped class. -/
theorem pick_apply (W : IVec S1x32768 32) (P : FVec Ideal S7x32768 .f32)
    (hi : S7x32768.Iotas .tc 32 [0]) (hb : S1x32768.Broadcasts S7x32768) (h : S7x32768.Reduces [0] S32768)
    (hφ : FKind.Formats .f32) (hacc : (0x00000000#32 : BitVec 32) = FKind.add.neutral .f32 hφ)
    (hc : S32768.ShapeCasts S1x32768) (j : Fin 32768) :
    shapeCast S1x32768 (multiReduction .add [0] S32768
      (select (cmpi .eq (iota .tc S7x32768 32 [0] hi)
          (broadcastTo S7x32768 (minsi (broadcast S1x32768 6#32) (maxsi (broadcast S1x32768 0#32) W)) hb))
        P (broadcast S7x32768 (Scalar.ofBits (F := Ideal) .f32 0x00000000#32)))
      0x00000000#32 h hφ hacc) hc (ix2 (0 : Fin 1) j)
      = P (ix2 (Pom.clipIdx (W (ix2 (0 : Fin 1) j))) j) := by
  refine (shapeCast_a_1a_apply _ hc 0 j).trans ?_
  refine (colSum_eq _ h hφ hacc j).trans ?_
  refine Eq.trans ?_ (Pom.oneHot_sum (fun c => P (ix2 c j)) (W (ix2 (0 : Fin 1) j)))
  refine Finset.sum_congr rfl fun k _ => ?_
  show Scalar.select (IntOp.cmpi .eq (iota .tc S7x32768 32 [0] hi (ix2 k j))
      (broadcastTo S7x32768 (minsi (broadcast S1x32768 6#32) (maxsi (broadcast S1x32768 0#32) W)) hb (ix2 k j)))
      (P (ix2 k j)) (Scalar.ofBits (F := Ideal) .f32 0x00000000#32) = _
  rw [iota_single_apply, broadcastTo_1b_ab_apply, scalar_ofBits, Ideal.ofBits_zero_f32]
  rfl

/-- The logarithm of that probability plus ε. -/
theorem pickLog_apply (W : IVec S1x32768 32) (P : FVec Ideal S7x32768 .f32)
    (hi : S7x32768.Iotas .tc 32 [0]) (hb : S1x32768.Broadcasts S7x32768) (h : S7x32768.Reduces [0] S32768)
    (hφ : FKind.Formats .f32) (hacc : (0x00000000#32 : BitVec 32) = FKind.add.neutral .f32 hφ)
    (hc : S32768.ShapeCasts S1x32768) (j : Fin 32768) :
    log (addf (shapeCast S1x32768 (multiReduction .add [0] S32768
      (select (cmpi .eq (iota .tc S7x32768 32 [0] hi)
          (broadcastTo S7x32768 (minsi (broadcast S1x32768 6#32) (maxsi (broadcast S1x32768 0#32) W)) hb))
        P (broadcast S7x32768 (Scalar.ofBits (F := Ideal) .f32 0x00000000#32)))
      0x00000000#32 h hφ hacc) hc) (broadcast S1x32768 (Scalar.ofBits (F := Ideal) .f32 0x2EDBE6FF#32))) (ix2 (0 : Fin 1) j)
      = Ideal.log (P (ix2 (Pom.clipIdx (W (ix2 (0 : Fin 1) j))) j) + Pom.eps) := by
  rw [log_apply, addf_apply, broadcast_apply, pick_apply, scalar_ofBits]
  rfl

/-- One neighbour's term as the body spells it: the validity bit of the word selecting that logarithm against zero. -/
theorem term_apply (W : IVec S1x32768 32) (P : FVec Ideal S7x32768 .f32)
    (hi : S7x32768.Iotas .tc 32 [0]) (hb : S1x32768.Broadcasts S7x32768) (h : S7x32768.Reduces [0] S32768)
    (hφ : FKind.Formats .f32) (hacc : (0x00000000#32 : BitVec 32) = FKind.add.neutral .f32 hφ)
    (hc : S32768.ShapeCasts S1x32768) (j : Fin 32768) :
    select (andi (cmpi .sge W (broadcast S1x32768 0#32)) (cmpi .slt W (broadcast S1x32768 7#32)))
      (log (addf (shapeCast S1x32768 (multiReduction .add [0] S32768
        (select (cmpi .eq (iota .tc S7x32768 32 [0] hi)
            (broadcastTo S7x32768 (minsi (broadcast S1x32768 6#32) (maxsi (broadcast S1x32768 0#32) W)) hb))
          P (broadcast S7x32768 (Scalar.ofBits (F := Ideal) .f32 0x00000000#32)))
        0x00000000#32 h hφ hacc) hc) (broadcast S1x32768 (Scalar.ofBits (F := Ideal) .f32 0x2EDBE6FF#32))))
      (broadcast S1x32768 (Scalar.ofBits (F := Ideal) .f32 0x00000000#32)) (ix2 (0 : Fin 1) j)
      = Pom.logTerm (fun c => P (ix2 c j)) (W (ix2 (0 : Fin 1) j)) := by
  refine (select_apply _ _ _ _).trans ?_
  rw [pickLog_apply]
  show Scalar.select (Pom.validW (W (ix2 (0 : Fin 1) j))) _ (Scalar.ofBits (F := Ideal) .f32 0x00000000#32) = _
  rw [scalar_ofBits, Ideal.ofBits_zero_f32]
  rfl

/-- The first neighbour's word: the target plus the word of -1. -/
theorem pay6_apply (Tv : Vec Ideal S1x32768 .i32) (j : Fin 32768) :
    k0_pay6 (F := Ideal) Tv (ix2 (0 : Fin 1) j) = IntOp.addi (Tv (ix2 (0 : Fin 1) j)) (Pom.offW 0) := by
  unfold k0_pay6
  rw [pay3_eq]
  rfl

/-- Its validity bit. -/
theorem pay7_apply (Tv : Vec Ideal S1x32768 .i32) (j : Fin 32768) :
    k0_pay7 (F := Ideal) Tv (ix2 (0 : Fin 1) j) = Pom.validW (IntOp.addi (Tv (ix2 (0 : Fin 1) j)) (Pom.offW 0)) := by
  unfold k0_pay7
  show Pom.validW (k0_pay6 (F := Ideal) Tv (ix2 (0 : Fin 1) j)) = _
  rw [pay6_apply]

/-- Its logarithm: of the probability of its clipped class plus ε. -/
theorem pay8_apply (X : Vec Ideal S7x32768 .f32) (Tv : Vec Ideal S1x32768 .i32) (j : Fin 32768) :
    k0_pay8 X Tv (ix2 (0 : Fin 1) j)
      = Ideal.log (softmaxRows (rowsOf X) (ix2 j (Pom.clipIdx (IntOp.addi (Tv (ix2 (0 : Fin 1) j)) (Pom.offW 0)))) + Pom.eps) := by
  unfold k0_pay8
  refine (pickLog_apply (k0_pay6 (F := Ideal) Tv) (k0_pay4 X) _ _ _ _ _ _ j).trans ?_
  rw [pay6_apply, pay4_apply]

/-- The accumulator after the first two neighbours, over any earlier values: the first term as its three parts, the
    second as the spec's term. -/
theorem pay10_gen (v6 : IVec S1x32768 32) (P : FVec Ideal S7x32768 .f32) (hi : S7x32768.Iotas .tc 32 [0])
    (v17 : FVec Ideal S1x32768 .f32) (v24 : IVec S1x32768 1) (v37 v38 : FVec Ideal S1x32768 .f32) (j : Fin 32768) :
    k0_pay10 v6 P (iota .tc S7x32768 32 [0] hi) v17 v24 v37 v38 (ix2 (0 : Fin 1) j)
      = (v17 (ix2 (0 : Fin 1) j) + Scalar.select (v24 (ix2 (0 : Fin 1) j)) (v37 (ix2 (0 : Fin 1) j)) (v38 (ix2 (0 : Fin 1) j)))
        + Pom.logTerm (fun c => P (ix2 c j)) (IntOp.addi (v6 (ix2 (0 : Fin 1) j)) (Pom.offW 1)) := by
  unfold k0_pay10
  exact congrArg (fun x => (v17 (ix2 (0 : Fin 1) j) + Scalar.select (v24 (ix2 (0 : Fin 1) j)) (v37 (ix2 (0 : Fin 1) j)) (v38 (ix2 (0 : Fin 1) j))) + x)
    (term_apply (addi v6 (broadcast S1x32768 0#32)) P hi _ _ _ _ _ j)

/-- The third neighbour's validity bit. -/
theorem pay12_gen (v6 : IVec S1x32768 32) (j : Fin 32768) :
    k0_pay12 v6 (ix2 (0 : Fin 1) j) = Pom.validW (IntOp.addi (v6 (ix2 (0 : Fin 1) j)) (Pom.offW 2)) := by
  unfold k0_pay12 k0_pay11
  rfl

/-- The third neighbour's picked probability. -/
theorem pay13_gen (v6 : IVec S1x32768 32) (P : FVec Ideal S7x32768 .f32) (hi : S7x32768.Iotas .tc 32 [0]) (j : Fin 32768) :
    k0_pay13 v6 P (iota .tc S7x32768 32 [0] hi) (ix2 (0 : Fin 1) j)
      = P (ix2 (Pom.clipIdx (IntOp.addi (v6 (ix2 (0 : Fin 1) j)) (Pom.offW 2))) j) := by
  unfold k0_pay13 k0_pay11
  exact pick_apply (addi v6 (broadcast S1x32768 1#32)) P hi _ _ _ _ _ j

/-- The zero splat the accumulator starts from. -/
theorem pay5_apply (i : S1x32768.Idx) : k0_pay5 (F := Ideal) i = 0 := by
  unfold k0_pay5
  show broadcast S1x32768 (Scalar.ofBits (F := Ideal) .f32 0x00000000#32) i = 0
  rw [broadcast_apply, scalar_ofBits, Ideal.ofBits_zero_f32]

/-- The zero splat a term is selected against. -/
theorem pay9_apply (i : S1x32768.Idx) : k0_pay9 (F := Ideal) i = 0 := by
  unfold k0_pay9
  show broadcast S1x32768 (Scalar.ofBits (F := Ideal) .f32 0x00000000#32) i = 0
  rw [broadcast_apply, scalar_ofBits, Ideal.ofBits_zero_f32]

/-- The splat of ε. -/
theorem pay14_apply (i : S1x32768.Idx) : k0_pay14 (F := Ideal) i = Pom.eps := by
  unfold k0_pay14
  show broadcast S1x32768 (Scalar.ofBits (F := Ideal) .f32 0x2EDBE6FF#32) i = Pom.eps
  rw [broadcast_apply, scalar_ofBits]
  rfl

/-! ## A lane's loss -/

/-- Zero minus the accumulator after the three neighbours, at lane j, is the sample's loss. -/
theorem lane_apply (X : Vec Ideal S7x32768 .f32) (Tv : Vec Ideal S1x32768 .i32) (j : Fin 32768) :
    (0 : EReal) - (k0_pay10 (k0_pay3 Tv) (k0_pay4 X) (iota .tc S7x32768 32 [0] iota_S7x32768_d0_w32) (k0_pay5 (F := Ideal))
          (k0_pay7 Tv) (k0_pay8 X Tv) (k0_pay9 (F := Ideal)) (ix2 (0 : Fin 1) j)
        + Scalar.select (k0_pay12 (k0_pay3 Tv) (ix2 (0 : Fin 1) j))
            (Ideal.log (k0_pay13 (k0_pay3 Tv) (k0_pay4 X) (iota .tc S7x32768 32 [0] iota_S7x32768_d0_w32) (ix2 (0 : Fin 1) j)
              + k0_pay14 (F := Ideal) (ix2 (0 : Fin 1) j))) 0)
      = Pom.perSample (fun c => softmaxRows (rowsOf X) (ix2 j c)) (Tv (ix2 (0 : Fin 1) j)) := by
  rw [pay10_gen, pay12_gen, pay13_gen, pay3_eq, pay5_apply, pay7_apply, pay8_apply, pay9_apply, pay14_apply, pay4_apply,
    show (fun c => k0_pay4 X (ix2 c j)) = (fun c => softmaxRows (rowsOf X) (ix2 j c)) from funext fun c => pay4_apply X c j]
  unfold Pom.perSample
  rw [Fin.sum_univ_three, zero_sub, zero_add]
  rfl

/-! ## The sum over the lanes and the slot of the tile -/

/-- The sum over axis 1 of a one-row value, cast to one by one and read at its one position, is the sum over the lanes. -/
theorem rowTotal_apply (v : FVec Ideal S1x32768 .f32) (h : S1x32768.Reduces [1] S1) (hφ : FKind.Formats .f32)
    (hacc : (0x00000000#32 : BitVec 32) = 0x00000000#32) (hc : S1.ShapeCasts S1x1)
    (hp : ∀ a, (![0, 0] : Fin 2 → Nat) a < S1x1.size a) :
    extractAt ![0, 0] (shapeCast S1x1 (multiReduction .add [1] S1 v 0x00000000#32 h hφ hacc) hc) hp
      = ∑ j : Fin 32768, v (ix2 (0 : Fin 1) j) := by
  unfold extractAt shapeCast
  refine (Ideal.multiReduction_add_total v _ h (fun b => by fin_cases b; rfl) hφ hacc _).trans ?_
  rw [sum_idx2]
  exact Fin.sum_univ_one _

/-- Zero minus the accumulator plus the last term, at lane j. -/
theorem negAcc_apply (v63 : FVec Ideal S1x32768 .f32) (v70 : IVec S1x32768 1) (v80 v81 : FVec Ideal S1x32768 .f32) (j : Fin 32768) :
    subf (broadcast S1x32768 (Scalar.ofBits (F := Ideal) .f32 0x00000000#32))
        (addf v63 (select v70 (log (addf v80 v81)) (broadcast S1x32768 (Scalar.ofBits (F := Ideal) .f32 0x00000000#32))))
        (ix2 (0 : Fin 1) j)
      = 0 - (v63 (ix2 (0 : Fin 1) j)
          + Scalar.select (v70 (ix2 (0 : Fin 1) j)) (Ideal.log (v80 (ix2 (0 : Fin 1) j) + v81 (ix2 (0 : Fin 1) j))) 0) := by
  rw [subf_apply, addf_apply, select_apply, log_apply, addf_apply, broadcast_apply, scalar_ofBits, Ideal.ofBits_zero_f32]

/-- The slot's flat position, row times 128 plus lane as words, compared with a word. -/
theorem slotWord_apply (hi0 : S8x128.Iotas .tc 32 [0]) (hi1 : S8x128.Iotas .tc 32 [1]) (a : BitVec 32) (r : Fin 8) (q : Fin 128) :
    cmpi .eq (addi (muli (iota .tc S8x128 32 [0] hi0) (broadcast S8x128 128#32)) (iota .tc S8x128 32 [1] hi1))
        (broadcast S8x128 a) (ix2 r q)
      = IntOp.cmpi .eq (BitVec.ofNat 32 r.val * 128#32 + BitVec.ofNat 32 q.val) a := by
  show IntOp.cmpi .eq (IntOp.addi (IntOp.muli (iota .tc S8x128 32 [0] hi0 (ix2 r q)) 128#32)
      (iota .tc S8x128 32 [1] hi1 (ix2 r q))) a = _
  rw [iota_single_apply, iota_single_apply]
  rfl

/-- With r below 8, q below 128 and n below 64, the words are equal exactly when r * 128 + q = n: nothing wraps. -/
theorem slot_eq_iff (r q n : Nat) (hr : r < 8) (hq : q < 128) (hn : n < 64) :
    BitVec.ofNat 32 r * 128#32 + BitVec.ofNat 32 q = BitVec.ofNat 32 n ↔ r * 128 + q = n := by
  constructor
  · intro h
    have h' := congrArg BitVec.toNat h
    simp only [BitVec.toNat_add, BitVec.toNat_mul, BitVec.toNat_ofNat] at h'
    omega
  · rintro rfl
    apply BitVec.eq_of_toNat_eq
    simp only [BitVec.toNat_add, BitVec.toNat_mul, BitVec.toNat_ofNat]
    omega

/-- The body's last stored value at slot (r, q), over any earlier values: the tile's entry plus, selected by the slot's
    word, the sum over the lanes of zero minus the accumulator with the last term. -/
theorem pay1_gen (arg1 : BitVec 32) (v63 : FVec Ideal S1x32768 .f32) (v70 : IVec S1x32768 1) (v80 v81 : FVec Ideal S1x32768 .f32)
    (v99 : Vec Ideal S8x128 .f32) (r : Fin 8) (q : Fin 128) :
    k0_pay1 arg1 v63 v70 v80 v81 v99 (ix2 r q)
      = v99 (ix2 r q) + Scalar.select (IntOp.cmpi .eq (BitVec.ofNat 32 r.val * 128#32 + BitVec.ofNat 32 q.val) arg1)
          (∑ j : Fin 32768, (0 - (v63 (ix2 (0 : Fin 1) j)
            + Scalar.select (v70 (ix2 (0 : Fin 1) j)) (Ideal.log (v80 (ix2 (0 : Fin 1) j) + v81 (ix2 (0 : Fin 1) j))) 0))) 0 := by
  unfold k0_pay1
  refine (addf_apply _ _ _).trans ?_
  rw [shapeCast_self, select_apply, slotWord_apply, broadcast_apply, broadcast_apply, rowTotal_apply,
    Finset.sum_congr rfl fun j _ => negAcc_apply v63 v70 v80 v81 j, scalar_ofBits, Ideal.ofBits_zero_f32]

/-- Read at slot (r, q): the tile's entry plus the block's loss when r * 128 + q = n, plus zero otherwise. -/
theorem stored_apply (n : ℕ) (hn : n < 64) (X : Vec Ideal S7x32768 .f32) (Tv : Vec Ideal S1x32768 .i32)
    (acc : Vec Ideal S8x128 .f32) (r : Fin 8) (q : Fin 128) :
    stored n X Tv acc (ix2 r q) = acc (ix2 r q) + (if r.val * 128 + q.val = n then blockLoss X Tv else 0) := by
  unfold stored
  rw [pay1_gen]
  have hL : (∑ j : Fin 32768, ((0 : EReal) - (k0_pay10 (k0_pay3 Tv) (k0_pay4 X) (iota .tc S7x32768 32 [0] iota_S7x32768_d0_w32)
          (k0_pay5 (F := Ideal)) (k0_pay7 Tv) (k0_pay8 X Tv) (k0_pay9 (F := Ideal)) (ix2 (0 : Fin 1) j)
        + Scalar.select (k0_pay12 (k0_pay3 Tv) (ix2 (0 : Fin 1) j))
            (Ideal.log (k0_pay13 (k0_pay3 Tv) (k0_pay4 X) (iota .tc S7x32768 32 [0] iota_S7x32768_d0_w32) (ix2 (0 : Fin 1) j)
              + k0_pay14 (F := Ideal) (ix2 (0 : Fin 1) j))) 0))) = blockLoss X Tv :=
    Finset.sum_congr rfl fun j _ => lane_apply X Tv j
  rw [hL]
  by_cases h : r.val * 128 + q.val = n
  · rw [if_pos h, StableHlo.Predicate.cmpi_eq_iff.mpr ((slot_eq_iff r.val q.val n r.isLt q.isLt hn).mpr h), select_one]
  · rw [if_neg h, eq_zero_of_ne_one (fun hc => h ((slot_eq_iff r.val q.val n r.isLt q.isLt hn).mp
      (StableHlo.Predicate.cmpi_eq_iff.mp hc))), select_zero]

/-- The stored tile, slot by slot. -/
theorem storedSpec : StoredSpec := fun n hn X Tv acc r q => stored_apply n hn X Tv acc r q

end Cert.KernelIdeal.KForms

end
-- ==== Proof.KBody.lean ====
/-
  What the body leaves in the output tile's staging buffer, in each of its two control cases, as a value.

  At a point whose inner coordinate is zero the body first stores a zero tile, reads it back, and stores the
  accumulated tile over it; elsewhere it reads the tile the point before left and stores the accumulated tile.
  In both cases the last store covers the whole tile, so what the buffer holds afterwards is that store's value:
  the composed payload (KForms.stored) of the two input blocks and of the tile read — the zero tile in the first
  case, the carried tile in the second.
-/
import proofs.«405338_j9732395893213_2_alg».proof.Proof.KDefs
import proofs.«405338_j9732395893213_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KBody

open Cert.KernelIdeal Cert.KernelIdeal.Gen Cert.KernelIdeal.KForms

theorem hz : (![0, 0] : Fin 2 → Nat) = fun _ => 0 := funext fun a => by fin_cases a <;> rfl

/-- The zero tile the first store of a reset point writes. -/
abbrev zeroTile : Vec Ideal S8x128 .f32 := k0_pay2 (F := Ideal)

/-- A point that carries the tile over: the buffer ends at the composed payload of the input blocks and the
    carried tile. -/
theorem out_B (c : Dev nD) (i : grid0.Coords) (a2 : Memref sig .tc .vmem S7x32768 .f32) (h2 : a2.IsWhole)
    (a3 : Memref sig .tc .vmem S1x32768 .i32) (h3 : a3.IsWhole) (a4 : Memref sig .tc .vmem S8x128 .f32) (h4 : a4.IsWhole)
    (hc : ¬cond0_0 i) (x0 : Vec Ideal S7x32768 .f32) (x1 : Vec Ideal S1x32768 .i32) (xo : Vec Ideal S8x128 .f32) :
    out0_B_2 (F := Ideal) c i a2 h2 a3 h3 a4 h4 hc x0 x1 xo = stored (i 1).val x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S8x128) hz,
    View.ld_unit_zero (S := S7x32768) hz, View.ld_unit_zero (S := S1x32768) hz]
  rfl

/-- A reset point: the buffer ends at the composed payload of the input blocks and the zero tile. -/
theorem out_A (c : Dev nD) (i : grid0.Coords) (a2 : Memref sig .tc .vmem S7x32768 .f32) (h2 : a2.IsWhole)
    (a3 : Memref sig .tc .vmem S1x32768 .i32) (h3 : a3.IsWhole) (a4 : Memref sig .tc .vmem S8x128 .f32) (h4 : a4.IsWhole)
    (hc : cond0_0 i) (x0 : Vec Ideal S7x32768 .f32) (x1 : Vec Ideal S1x32768 .i32) :
    out0_A_2 (F := Ideal) c i a2 h2 a3 h3 a4 h4 hc x0 x1 = stored (i 1).val x0 x1 zeroTile := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S8x128) hz,
    View.ld_unit_zero (S := S7x32768) hz, View.ld_unit_zero (S := S1x32768) hz]
  rfl

end Cert.KernelIdeal.KBody

end
-- ==== Proof.LibIntOps.lean ====
/-
  Integer host operations as finite sums.

  (a) A left fold of the step "add g n to the accumulator" over the positions 0, …, N-1 in order, started at a,
      is a plus the sum of g over all positions, in any commutative monoid: addition is associative and
      commutative, so the order of the fold does not matter.

  (b) Integer scatter-add.  The scatter visits the update indices in row-major order; at an update index j
      whose result index is i₀ it replaces the element at i₀ by that element plus the update's element, and
      it skips an update whose result index falls outside the operand.  Read at one result index i, every
      step adds either the update's element (when the step's result index is i) or nothing.  Hence the
      scattered array at i is the operand at i plus the sum of the update elements whose result index is
      i.  Row-major numbering is a bijection between positions and update indices, so the sum over positions
      is a sum over update indices.

  (c) Cumulative sum as a windowed sum.  A window of N positions slides over a length-N vector padded by
      N - 1 zeros on the low side, with stride one; the result at j adds, for each window position p, the
      padded vector's element at j + p, which is the vector's element at j + p - (N-1) when
      j + p ≥ N - 1 and zero otherwise.  The map p ↦ j + p - (N-1) is a bijection from the positions
      p ≥ N - 1 - j onto the vector indices q ≤ j, so the result at j is the sum of the vector's elements
      at the indices q ≤ j.

  (d) Words and naturals.  The natural number of a sum of words is the sum of their natural numbers
      modulo 2^w; when the sum of all the naturals is below 2^32 no partial sum wraps, so the cumulative
      sum read as a natural is the cumulative sum of the naturals.
-/
import Idealize.ShloMosaic.Lib.ValueIdx
import Idealize.ShloMosaic.PureOps.Contract
import Idealize.ShloMosaic.PureOps.ShapeOps
import Mathlib.Data.BitVec
import Mathlib.Algebra.BigOperators.Fin
import Mathlib.Algebra.BigOperators.Group.Finset.Basic

noncomputable section

open scoped BigOperators

namespace Cert.Gcn.IntOps

open Idealize.ShloMosaic Idealize.ShloMosaic.ValueIdx

/-- (a) A left fold of additions over all positions in order is the start plus the sum over the positions. -/
theorem foldl_finRange_add {M : Type} [AddCommMonoid M] (N : Nat) (g : Fin N → M) (a : M) :
    List.foldl (fun r n => r + g n) a (List.finRange N) = a + ∑ n : Fin N, g n := by
  rw [Fin.sum_univ_def]
  generalize List.finRange N = l
  induction l generalizing a with
  | nil => simp
  | cons n l ih => rw [List.foldl_cons, ih, List.map_cons, List.sum_cons, add_assoc]

/-- (b), one result index along any list of positions: each step adds the update's element when the step's
    result index is the index read, and nothing otherwise. -/
private theorem scatter_fold_apply {s si u : Shape} {w w' : Nat} [DecidableEq s.Idx] (d : ScatterDims s si u)
    (idx : IVec si w') (upd : u.Idx → BitVec w) (i : s.Idx)
    [DecidablePred fun j : u.Idx => d.resultIdx? j idx = some i] (l : List (Fin u.numel)) :
    ∀ r : s.Idx → BitVec w,
      (l.foldl (fun r n =>
        match d.resultIdx? (u.rowMajor.symm n) idx with
        | some i => fun i' => if i' = i then IntOp.addi (r i) (upd (u.rowMajor.symm n)) else r i'
        | none => r) r) i
      = r i + (l.map fun n => if d.resultIdx? (u.rowMajor.symm n) idx = some i
                                then upd (u.rowMajor.symm n) else 0).sum := by
  induction l with
  | nil => intro r; simp
  | cons n l ih =>
    intro r
    rw [List.foldl_cons, ih, List.map_cons, List.sum_cons, ← add_assoc]
    congr 1
    by_cases hc : d.resultIdx? (u.rowMajor.symm n) idx = some i
    · rw [if_pos hc, hc]
      simp [IntOp.addi]
    · rw [if_neg hc, add_zero]
      cases hres : d.resultIdx? (u.rowMajor.symm n) idx with
      | none => rfl
      | some i0 =>
        have hi : i ≠ i0 := fun e => hc (by rw [hres, e])
        simp [hi]

/-- (b) Integer scatter-add at a result index: the operand's element plus the sum of the update elements whose
    result index it is. -/
theorem scatter_addi_apply {s si u : Shape} {w w' : Nat} (d : ScatterDims s si u) (x : s.Idx → BitVec w)
    (idx : IVec si w') (upd : u.Idx → BitVec w) (i : s.Idx)
    [DecidablePred fun j : u.Idx => d.resultIdx? j idx = some i] :
    Host.scatter d IntOp.addi x idx upd i
      = x i + ∑ j ∈ Finset.univ.filter (fun j : u.Idx => d.resultIdx? j idx = some i), upd j := by
  unfold Host.scatter
  refine (scatter_fold_apply d idx upd i (List.finRange u.numel) x).trans ?_
  rw [← Fin.sum_univ_def, Finset.sum_filter]
  congr 1
  exact Equiv.sum_comp u.rowMajor.symm (fun j => if d.resultIdx? j idx = some i then upd j else 0)

/-- (d) The natural number of a sum of words is the sum of the natural numbers modulo 2^w. -/
theorem toNat_sum {w : Nat} {ι : Type} (S : Finset ι) (f : ι → BitVec w) :
    (∑ q ∈ S, f q).toNat = (∑ q ∈ S, (f q).toNat) % 2 ^ w := by
  classical
  induction S using Finset.induction_on with
  | empty => simp
  | insert a S ha ih =>
    rw [Finset.sum_insert ha, Finset.sum_insert ha, BitVec.toNat_add, ih, Nat.add_mod_mod]

/-- (b), (d) When the operand's element and the updates landing on it add up to less than 2^w as natural
    numbers, the scattered element read as a natural number is that sum. -/
theorem scatter_addi_toNat {s si u : Shape} {w w' : Nat} (d : ScatterDims s si u) (x : s.Idx → BitVec w)
    (idx : IVec si w') (upd : u.Idx → BitVec w) (i : s.Idx)
    [DecidablePred fun j : u.Idx => d.resultIdx? j idx = some i]
    (hlt : (x i).toNat
      + ∑ j ∈ Finset.univ.filter (fun j : u.Idx => d.resultIdx? j idx = some i), (upd j).toNat < 2 ^ w) :
    (Host.scatter d IntOp.addi x idx upd i).toNat
      = (x i).toNat
        + ∑ j ∈ Finset.univ.filter (fun j : u.Idx => d.resultIdx? j idx = some i), (upd j).toNat := by
  rw [scatter_addi_apply, BitVec.toNat_add, toNat_sum, Nat.add_mod_mod, Nat.mod_eq_of_lt hlt]

/-- A rank-one index is its one coordinate. -/
def idx1Equiv (n : Nat) : (⟨1, ![n]⟩ : Shape).Idx ≃ Fin n where
  toFun i := i 0
  invFun a := ix1 a
  left_inv i := (eq_ix1 i).symm
  right_inv _ := rfl

/-- (c) The cumulative sum, written as a windowed sum of N positions over the vector padded low by L = N - 1
    zeros, is at j the sum of the vector's elements at the indices up to j. -/
theorem cumsum_apply (N L : Nat) (hL : L + 1 = N) (x : (⟨1, ![N]⟩ : Shape).Idx → BitVec 32)
    (init : (⟨0, ![]⟩ : Shape).Idx → BitVec 32) (h0 : ∀ k, init k = 0#32)
    (h : (⟨1, ![N]⟩ : Shape).ReduceWindows (![N] : Fin 1 → Nat) ![1] ![L] ![0] ⟨1, ![N]⟩)
    (hu : 0 < (⟨0, ![]⟩ : Shape).numel) (j : (⟨1, ![N]⟩ : Shape).Idx) :
    Host.reduceWindow IntOp.addi (![N] : Fin 1 → Nat) ![1] ![L] ![0] x init h hu j
      = ∑ q ∈ Finset.univ.filter (fun q : Fin N => q.val ≤ (j 0).val), x (ix1 q) := by
  subst hL
  have hj : (j 0).val < L + 1 := (j 0).isLt
  -- the vector as a function of a natural position, zero outside
  let X : Nat → BitVec 32 := fun k => if hk : k < L + 1 then x (ix1 ⟨k, hk⟩) else 0
  -- the padded vector's element under window position i of the window at j
  let H : (⟨1, ![L + 1]⟩ : Shape).Idx → BitVec 32 := fun i =>
    if L ≤ (j 0).val + (i 0).val then X ((j 0).val + (i 0).val - L) else 0
  unfold Host.reduceWindow
  dsimp only
  rw [h0 (Shape.Idx.first hu)]
  simp only [IntOp.addi]
  rw [foldl_finRange_add, BitVec.zero_add]
  calc _ = ∑ n : Fin (Shape.numel ⟨1, ![L + 1]⟩), H ((Shape.rowMajor ⟨1, ![L + 1]⟩).symm n) :=
        Finset.sum_congr rfl (fun n _ => ?_)
    _ = ∑ i : (⟨1, ![L + 1]⟩ : Shape).Idx, H i := Equiv.sum_comp _ H
    _ = ∑ p : Fin (L + 1), H (ix1 p) := (Equiv.sum_comp (idx1Equiv (L + 1)).symm H).symm
    _ = ∑ q ∈ Finset.univ.filter (fun q : Fin (L + 1) => q.val ≤ (j 0).val), x (ix1 q) := ?_
  · -- one window position: inside the vector exactly when L ≤ j + p
    have hi : ((Shape.rowMajor ⟨1, ![L + 1]⟩).symm n 0).val < L + 1 := ((Shape.rowMajor ⟨1, ![L + 1]⟩).symm n 0).isLt
    show _ = (if L ≤ (j 0).val + ((Shape.rowMajor ⟨1, ![L + 1]⟩).symm n 0).val then X ((j 0).val + ((Shape.rowMajor ⟨1, ![L + 1]⟩).symm n 0).val - L) else 0)
    split_ifs with hin hc hc
    · show _ = (if hk : (j 0).val + ((Shape.rowMajor ⟨1, ![L + 1]⟩).symm n 0).val - L < L + 1 then x (ix1 ⟨_, hk⟩) else 0)
      rw [dif_pos (by omega)]
      congr 1
      funext a
      match a with
      | ⟨0, _⟩ => exact Fin.ext (by show (j 0).val * 1 + ((Shape.rowMajor ⟨1, ![L + 1]⟩).symm n 0).val - L = (j 0).val + ((Shape.rowMajor ⟨1, ![L + 1]⟩).symm n 0).val - L; omega)
    · exfalso
      have h1 := (hin 0).1
      change L ≤ (j 0).val * 1 + ((Shape.rowMajor ⟨1, ![L + 1]⟩).symm n 0).val at h1
      omega
    · exfalso
      apply hin
      rw [Fin.forall_fin_one]
      show L ≤ (j 0).val * 1 + ((Shape.rowMajor ⟨1, ![L + 1]⟩).symm n 0).val ∧ (j 0).val * 1 + ((Shape.rowMajor ⟨1, ![L + 1]⟩).symm n 0).val - L < L + 1
      omega
    · rfl
  · -- the positions p with L ≤ j + p correspond to the indices q = j + p - L ≤ j
    show ∑ p : Fin (L + 1), (if L ≤ (j 0).val + p.val then X ((j 0).val + p.val - L) else 0) = _
    rw [← Finset.sum_filter]
    refine Finset.sum_bij
      (fun p _ => (⟨(j 0).val + p.val - L, by have := p.isLt; omega⟩ : Fin (L + 1))) ?_ ?_ ?_ ?_
    · intro p hp
      rw [Finset.mem_filter] at hp ⊢
      exact ⟨Finset.mem_univ _, by show (j 0).val + p.val - L ≤ (j 0).val; have := p.isLt; omega⟩
    · intro p hp p' hp' e
      rw [Finset.mem_filter] at hp hp'
      have e' : (j 0).val + p.val - L = (j 0).val + p'.val - L := congrArg Fin.val e
      exact Fin.ext (by omega)
    · intro q hq
      rw [Finset.mem_filter] at hq
      have hq' := q.isLt
      refine ⟨⟨q.val + L - (j 0).val, by omega⟩, ?_, ?_⟩
      · rw [Finset.mem_filter]
        exact ⟨Finset.mem_univ _, by show L ≤ (j 0).val + (q.val + L - (j 0).val); omega⟩
      · exact Fin.ext (by show (j 0).val + (q.val + L - (j 0).val) - L = q.val; omega)
    · intro p hp
      have hp' := p.isLt
      show (if hk : (j 0).val + p.val - L < L + 1 then x (ix1 ⟨_, hk⟩) else 0) = _
      rw [dif_pos (by omega)]

/-- (c), (d) When the sum of all the elements' natural numbers is below 2^32, the cumulative sum read as a
    natural number is the cumulative sum of the natural numbers. -/
theorem cumsum_toNat (N L : Nat) (hL : L + 1 = N) (x : (⟨1, ![N]⟩ : Shape).Idx → BitVec 32)
    (init : (⟨0, ![]⟩ : Shape).Idx → BitVec 32) (h0 : ∀ k, init k = 0#32)
    (h : (⟨1, ![N]⟩ : Shape).ReduceWindows (![N] : Fin 1 → Nat) ![1] ![L] ![0] ⟨1, ![N]⟩)
    (hu : 0 < (⟨0, ![]⟩ : Shape).numel) (j : (⟨1, ![N]⟩ : Shape).Idx)
    (hsum : ∑ q : Fin N, (x (ix1 q)).toNat < 2 ^ 32) :
    (Host.reduceWindow IntOp.addi (![N] : Fin 1 → Nat) ![1] ![L] ![0] x init h hu j).toNat
      = ∑ q ∈ Finset.univ.filter (fun q : Fin N => q.val ≤ (j 0).val), (x (ix1 q)).toNat := by
  rw [cumsum_apply N L hL x init h0 h hu j, toNat_sum]
  refine Nat.mod_eq_of_lt (lt_of_le_of_lt ?_ hsum)
  exact Finset.sum_le_sum_of_subset (Finset.filter_subset _ _)

/-- The windowed sum at the length 4194304, padded low by 4194303: an instance of (c). -/
example (x : (⟨1, ![4194304]⟩ : Shape).Idx → BitVec 32) (v : (⟨0, ![]⟩ : Shape).Idx → BitVec 32)
    (h0 : ∀ k, v k = 0#32)
    (h : (⟨1, ![4194304]⟩ : Shape).ReduceWindows (![4194304] : Fin 1 → Nat) ![1] ![4194303] ![0] ⟨1, ![4194304]⟩)
    (hu : 0 < (⟨0, ![]⟩ : Shape).numel) (j : (⟨1, ![4194304]⟩ : Shape).Idx) :
    Host.reduceWindow IntOp.addi ![4194304] ![1] ![4194303] ![0] x v h hu j
      = ∑ q ∈ Finset.univ.filter (fun q : Fin 4194304 => q.val ≤ (j 0).val), x (ix1 q) :=
  cumsum_apply 4194304 4194303 rfl x v h0 h hu j

end Cert.Gcn.IntOps
-- ==== Proof.LibSums.lean ====
/-
  Two re-indexings of finite sums.

  (1) The positions below n * m are the pairs (r, c) with r below n and c below m, through p = r * m + c
      (division with remainder by m); so a sum over the positions below n * m is the double sum over the pairs.

  (2) A reduction over every axis of an array by integer addition.  The result has one element; every index of
      the array reduces to it, so the left fold visits all positions in row-major order, adding the element at
      each to the accumulator, started at the initial value.  Addition is associative and commutative, and
      row-major numbering is a bijection between positions and indices; hence the result is the initial value
      plus the sum of all the array's elements.
-/
import proofs.«405338_j9732395893213_2_alg».proof.Proof.LibIntOps
import Idealize.ShloMosaic.Lib.ValueIdx
import Idealize.ShloMosaic.PureOps.Contract
import Mathlib.Algebra.BigOperators.Fin
import Mathlib.Algebra.BigOperators.Group.Finset.Basic
import Mathlib.Logic.Equiv.Fin.Basic
import Mathlib.Tactic.Ring

noncomputable section

open scoped BigOperators

namespace Cert.Gcn.Sums

open Idealize.ShloMosaic Idealize.ShloMosaic.ValueIdx

/-- (1) A sum over the positions below n * m is the double sum over rows r and columns c of the term at
    r * m + c. -/
theorem sum_range_mul {M : Type*} [AddCommMonoid M] (n m : ℕ) (Φ : ℕ → M) :
    ∑ p ∈ Finset.range (n * m), Φ p = ∑ r : Fin n, ∑ c : Fin m, Φ (r.val * m + c.val) := by
  rw [Finset.sum_range, ← Equiv.sum_comp (finProdFinEquiv (m := n) (n := m)), Fintype.sum_prod_type]
  refine Finset.sum_congr rfl fun r _ => Finset.sum_congr rfl fun c _ => ?_
  rw [finProdFinEquiv_apply_val]
  congr 1
  ring

/-- (2) The reduction of an integer array over all its axes by addition is the initial value plus the sum of
    all the elements. -/
theorem reduce_addi_all {s : Shape} {axes : List (Fin s.rank)} (x : s.Idx → BitVec 32)
    (init : (⟨0, ![]⟩ : Shape).Idx → BitVec 32) (h : s.ReducesTo axes ⟨0, ![]⟩)
    (hu : 0 < (⟨0, ![]⟩ : Shape).numel) (j : (⟨0, ![]⟩ : Shape).Idx) :
    Host.reduce IntOp.addi x init h hu j = init (Shape.Idx.first hu) + ∑ i : s.Idx, x i := by
  unfold Host.reduce
  rw [List.filter_eq_self.2]
  · simp only [IntOp.addi]
    rw [IntOps.foldl_finRange_add]
    congr 1
    exact Equiv.sum_comp s.rowMajor.symm x
  · intro n _
    exact decide_eq_true (funext fun a => a.elim0)

end Cert.Gcn.Sums
-- ==== Proof.Bridge.lean ====
/-
  The sum of the output array is the sum of the rows' losses.

  The 16 x 128 output array is two tiles of 8 x 128, one per value of the outer grid coordinate; a tile's slot at
  flat position s = row * 128 + lane holds, for s < 64, the loss of block (tile * 64 + s) of 32768 consecutive
  rows, and zero for s ≥ 64. Summing the array therefore sums the 128 blocks' losses, which is the sum over all
  2^22 rows: a sum over positions p < n * m is the double sum over p = r * m + c.
-/
import proofs.«405338_j9732395893213_2_alg».proof.Proof.Spec
import proofs.«405338_j9732395893213_2_alg».proof.Proof.LibSums

noncomputable section

open scoped BigOperators

namespace Pom

open Idealize.ShloMosaic Idealize.ShloMosaic.ValueIdx DenseRows

/-- Row n's loss, zero past the last row. -/
def rowLossN (Z : Mat NB 7) (T : IVec ⟨1, ![NB]⟩ 32) (n : ℕ) : EReal :=
  if h : n < NB then rowLoss Z T ⟨n, h⟩ else 0

/-- Block k's loss: the sum of the losses of rows k * 32768 + j, j < 32768. -/
def blockSum (Z : Mat NB 7) (T : IVec ⟨1, ![NB]⟩ 32) (k : ℕ) : EReal :=
  ∑ j : Fin 32768, rowLossN Z T (k * 32768 + j.val)

/-- The output array: slot s = (R mod 8) * 128 + q of tile R / 8 holds block (R / 8) * 64 + s for s < 64. -/
def finalArr (Z : Mat NB 7) (T : IVec ⟨1, ![NB]⟩ 32) : (⟨2, ![16, 128]⟩ : Shape).Idx → EReal := fun i =>
  if ((i 0).val % 8) * 128 + (i 1).val < 64 then
    blockSum Z T (((i 0).val / 8) * 64 + (((i 0).val % 8) * 128 + (i 1).val))
  else 0

/-- The output array as a function of the flat position p = R * 128 + q: tile p / 1024, slot p mod 1024. -/
def flatArr (Z : Mat NB 7) (T : IVec ⟨1, ![NB]⟩ 32) (p : ℕ) : EReal :=
  if p % 1024 < 64 then blockSum Z T (p / 1024 * 64 + p % 1024) else 0

/-- The array at (R, q) is the flat function at R * 128 + q: with q < 128, the slot (R * 128 + q) mod 1024 is
    (R mod 8) * 128 + q and the tile (R * 128 + q) / 1024 is R / 8. -/
theorem finalArr_ix2 (Z : Mat NB 7) (T : IVec ⟨1, ![NB]⟩ 32) (a : Fin 16) (b : Fin 128) :
    finalArr Z T (ix2 a b) = flatArr Z T (a.val * 128 + b.val) := by
  have hb := b.isLt
  have h1 : (a.val * 128 + b.val) % 1024 = (a.val % 8) * 128 + b.val := by omega
  have h2 : (a.val * 128 + b.val) / 1024 = a.val / 8 := by omega
  unfold flatArr
  rw [h1, h2]
  rfl

/-- Inside tile t, slot s < 1024 holds block t * 64 + s when s < 64 and zero otherwise. -/
theorem flatArr_tile (Z : Mat NB 7) (T : IVec ⟨1, ![NB]⟩ 32) (t s : ℕ) (hs : s < 1024) :
    flatArr Z T (t * 1024 + s) = if s < 64 then blockSum Z T (t * 64 + s) else 0 := by
  have h1 : (t * 1024 + s) % 1024 = s := by omega
  have h2 : (t * 1024 + s) / 1024 = t := by omega
  unfold flatArr
  rw [h1, h2]

/-- A tile's 1024 slots sum to its first 64: the slots are the 64 leading ones followed by 960 zeros. -/
theorem sum_tile (Z : Mat NB 7) (T : IVec ⟨1, ![NB]⟩ 32) (t : ℕ) :
    ∑ s : Fin 1024, flatArr Z T (t * 1024 + s.val) = ∑ s : Fin 64, blockSum Z T (t * 64 + s.val) := by
  rw [← Finset.sum_range (fun s => flatArr Z T (t * 1024 + s)),
    ← Finset.sum_range (fun s => blockSum Z T (t * 64 + s))]
  have hsplit : ∑ s ∈ Finset.range 1024, flatArr Z T (t * 1024 + s)
      = ∑ s ∈ Finset.range 64, flatArr Z T (t * 1024 + s)
        + ∑ s ∈ Finset.range 960, flatArr Z T (t * 1024 + (64 + s)) :=
    Finset.sum_range_add (fun s => flatArr Z T (t * 1024 + s)) 64 960
  have htail : ∑ s ∈ Finset.range 960, flatArr Z T (t * 1024 + (64 + s)) = 0 := by
    refine Finset.sum_eq_zero fun s hs => ?_
    have hs' := Finset.mem_range.1 hs
    rw [flatArr_tile Z T t (64 + s) (by omega), if_neg (by omega)]
  have hhead : ∑ s ∈ Finset.range 64, flatArr Z T (t * 1024 + s)
      = ∑ s ∈ Finset.range 64, blockSum Z T (t * 64 + s) := by
    refine Finset.sum_congr rfl fun s hs => ?_
    have hs' := Finset.mem_range.1 hs
    rw [flatArr_tile Z T t s (by omega), if_pos hs']
  rw [hsplit, htail, add_zero, hhead]

/-- The sum of the rows' losses taken over the positions below the number of rows. -/
theorem sum_rowLossN (Z : Mat NB 7) (T : IVec ⟨1, ![NB]⟩ 32) :
    ∑ n ∈ Finset.range NB, rowLossN Z T n = ∑ b : Fin NB, rowLoss Z T b := by
  rw [Finset.sum_range]
  refine Finset.sum_congr rfl fun b _ => ?_
  unfold rowLossN
  rw [dif_pos b.isLt]

/-- Summing the output array sums every row's loss. -/
theorem sum_finalArr (Z : Mat NB 7) (T : IVec ⟨1, ![NB]⟩ 32) :
    ∑ i : (⟨2, ![16, 128]⟩ : Shape).Idx, finalArr Z T i = ∑ b : Fin NB, rowLoss Z T b := by
  have e1 : (16 * 128 : ℕ) = 2 * 1024 := by norm_num
  have e2 : (128 * 32768 : ℕ) = NB := by norm_num
  calc ∑ i : (⟨2, ![16, 128]⟩ : Shape).Idx, finalArr Z T i
      = ∑ a : Fin 16, ∑ b : Fin 128, flatArr Z T (a.val * 128 + b.val) := by
        rw [sum_idx2]
        exact Finset.sum_congr rfl fun a _ => Finset.sum_congr rfl fun b _ => finalArr_ix2 Z T a b
    _ = ∑ p ∈ Finset.range (2 * 1024), flatArr Z T p := by
        rw [← Cert.Gcn.Sums.sum_range_mul 16 128 (flatArr Z T), e1]
    _ = ∑ t : Fin 2, ∑ s : Fin 64, blockSum Z T (t.val * 64 + s.val) := by
        rw [Cert.Gcn.Sums.sum_range_mul 2 1024 (flatArr Z T)]
        exact Finset.sum_congr rfl fun t _ => sum_tile Z T t.val
    _ = ∑ k : Fin 128, ∑ j : Fin 32768, rowLossN Z T (k.val * 32768 + j.val) := by
        rw [← Cert.Gcn.Sums.sum_range_mul 2 64 (blockSum Z T), Finset.sum_range]
        rfl
    _ = ∑ n ∈ Finset.range NB, rowLossN Z T n := by
        rw [← Cert.Gcn.Sums.sum_range_mul 128 32768 (rowLossN Z T), e2]
    _ = ∑ b : Fin NB, rowLoss Z T b := sum_rowLossN Z T

end Pom

end
-- ==== Proof.KAcc.lean ====
/-
  The output tile after each grid point, and the two input blocks as blocks of the argument arrays.

  The grid has 2 x 64 points, point t at outer coordinate t / 64 and inner coordinate t mod 64. The logits window's
  block at point t is columns [32768 t, 32768 (t + 1)) of the transposed logits, so its entry (class c, lane j) is
  the logits' entry (row 32768 t + j, class c); the targets window's block is the same stretch of the targets. The
  output tile is reset at inner coordinate 0 and carried from point to point otherwise; each point adds its block's
  loss into the slot whose flat position equals the inner coordinate. Hence after point t the slot at flat position
  s holds, for s ≤ t mod 64, the loss of block 64 (t / 64) + s, and zero for larger s: by induction on the point.
-/
import proofs.«405338_j9732395893213_2_alg».proof.Proof.KBody
import proofs.«405338_j9732395893213_2_alg».proof.Proof.Bridge

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KAcc

open Cert.KernelIdeal Cert.KernelIdeal.Gen Cert.KernelIdeal.KForms Cert.KernelIdeal.KBody DenseRows

variable (m : (ℓ : Loc nD τ sig) → Buf (Elt Ideal) ℓ)

/-- A point's two grid coordinates. -/
theorem coords_facts : ∀ t : Fin cfg0.N, (grid0.coords t (0 : Fin 2)).val = t.val / 64 ∧ (grid0.coords t (1 : Fin 2)).val = t.val % 64 :=
  (by decide +kernel : ∀ t : Fin grid0.N, (grid0.coords t (0 : Fin 2)).val = t.val / 64 ∧ (grid0.coords t (1 : Fin 2)).val = t.val % 64)

/-- The windows' block indices at a point. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = t.val / 64 ∧ win0_2.index t (1 : Fin 2) = 0 :=
  (by decide +kernel : ∀ t : Fin grid0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = t.val / 64 ∧ win0_2.index t (1 : Fin 2) = 0)

/-- The logits as the region finds them: the transposed argument. -/
theorem V_v0 (c : Dev nD) : (V m c main_v0 : S7x4194304.Idx → EReal)
    = transpose S7x4194304 [1, 0] (m ((c : Thread nD τ).loc main_arg0)) transposes_S4194304x7_S7x4194304_1_0 := by
  show StableHlo.after hostOps0 (fun b => m (c, b)) (Proc.devRef .tc main_v0) = _
  after_results

/-- The targets as the region finds them: the argument as one row. -/
theorem V_v1 (c : Dev nD) : (V m c main_v1 : S1x4194304.Idx → BitVec 32)
    = shapeCast S1x4194304 (m ((c : Thread nD τ).loc main_arg1)) shapeCasts_S4194304_S1x4194304 := by
  show StableHlo.after hostOps0 (fun b => m (c, b)) (Proc.devRef .tc main_v1) = _
  after_results
  rfl

/-- The logits block at point t, entry (class cc, lane j): the logits' row 32768 t + j, class cc. -/
theorem xblk_apply (c : Dev nD) (t : Fin cfg0.N) (cc : Fin 7) (j : Fin 32768) (b : Fin 4194304)
    (hb : b.val = t.val * 32768 + j.val) :
    (iblk m c 0 t : Vec Ideal S7x32768 .f32) (ix2 cc j) = m ((c : Thread nD τ).loc main_arg0) (ix2 b cc) := by
  obtain ⟨h00, h01, -⟩ := idx_facts t
  unfold iblk
  rw [View.read_apply]
  show V m c main_v0 _ = _
  rw [V_v0]
  refine transpose_apply [1, 0] _ _ _ (ix2 b cc) (fun a => ?_)
  match a with
  | ⟨0, _⟩ =>
    show cc.val = win0_0.index t (0 : Fin 2) * 7 + 1 * cc.val
    rw [h00]; omega
  | ⟨1, _⟩ =>
    show b.val = win0_0.index t (1 : Fin 2) * 32768 + 1 * j.val
    rw [h01, hb]; omega

/-- The targets block at point t, lane j: the targets' entry 32768 t + j. -/
theorem tblk_apply (c : Dev nD) (t : Fin cfg0.N) (j : Fin 32768) (b : Fin 4194304)
    (hb : b.val = t.val * 32768 + j.val) :
    (iblk m c 1 t : Vec Ideal S1x32768 .i32) (ix2 (0 : Fin 1) j) = m ((c : Thread nD τ).loc main_arg1) (ix1 b) := by
  obtain ⟨-, -, h10, h11, -⟩ := idx_facts t
  unfold iblk
  rw [View.read_apply]
  show V m c main_v1 _ = _
  rw [V_v1]
  refine shapeCast_apply _ _ _ (ix1 b) ?_
  rw [Shape.rowMajor_val_one, Shape.rowMajor_val_two]
  show b.val = (win0_1.index t (0 : Fin 2) * 1 + 1 * 0) * 4194304 + (win0_1.index t (1 : Fin 2) * 32768 + 1 * j.val)
  rw [h10, h11, hb]; omega

/-- The loss of the block that point k reads (zero past the grid). -/
def BL (c : Dev nD) (k : ℕ) : EReal :=
  if h : k < cfg0.N then blockLoss (iblk m c 0 ⟨k, h⟩) (iblk m c 1 ⟨k, h⟩) else 0

/-- It is the loss of rows [32768 k, 32768 (k + 1)) of the two arguments. -/
theorem BL_eq (c : Dev nD) (k : ℕ) (hk : k < 128) :
    BL m c k = Pom.blockSum (m ((c : Thread nD τ).loc main_arg0)) (m ((c : Thread nD τ).loc main_arg1)) k := by
  have hN : cfg0.N = 128 := N_0
  have hk' : k < cfg0.N := by omega
  unfold BL
  rw [dif_pos hk']
  unfold blockLoss Pom.blockSum
  refine Finset.sum_congr rfl fun j _ => ?_
  have hlt : k * 32768 + j.val < Pom.NB := by
    have := j.isLt
    show k * 32768 + j.val < 4194304
    omega
  unfold Pom.rowLossN
  rw [dif_pos hlt]
  unfold Pom.rowLoss
  rw [tblk_apply m c ⟨k, hk'⟩ j ⟨k * 32768 + j.val, hlt⟩ rfl]
  refine congrArg (fun p => Pom.perSample p _) (funext fun cc => ?_)
  exact softmaxRows_rows (rowsOf (iblk m c 0 ⟨k, hk'⟩)) (m ((c : Thread nD τ).loc main_arg0)) j ⟨k * 32768 + j.val, hlt⟩
    (fun c' => xblk_apply m c ⟨k, hk'⟩ c' j ⟨k * 32768 + j.val, hlt⟩ rfl) cc

/-- At a point of the grid it is that point's blocks' loss. -/
theorem BL_at (c : Dev nD) (t : Fin cfg0.N) : blockLoss (iblk m c 0 t) (iblk m c 1 t) = BL m c t.val := by
  unfold BL
  rw [dif_pos t.isLt]

/-- The zero tile is zero everywhere. -/
theorem zeroTile_apply (i : S8x128.Idx) : zeroTile i = 0 := by
  show Ideal.ofBits .f32 0x00000000#32 = 0
  exact Ideal.ofBits_zero_f32

/-- After point n the slot at flat position s = r * 128 + q holds the loss of block 64 (n / 64) + s when
    s ≤ n mod 64, and zero otherwise. -/
theorem outsAt_apply (hS : StoredSpec) (c : Dev nD) : ∀ (n : ℕ) (h : n < cfg0.N) (r : Fin 8) (q : Fin 128),
    outsAt0 m c n h (ix2 r q)
      = if r.val * 128 + q.val ≤ n % 64 then BL m c (n / 64 * 64 + (r.val * 128 + q.val)) else 0
  | 0, h, r, q => by
    have hc := (coords_facts ⟨0, h⟩).2
    rw [outsAt0_A m c ⟨0, h⟩ rfl, out_A, hS _ (by rw [hc]; omega), zeroTile_apply, zero_add, hc]
    show (if r.val * 128 + q.val = 0 % 64 then _ else 0) = _
    by_cases hs : r.val * 128 + q.val = 0
    · rw [if_pos (by omega), if_pos (by omega)]
      rw [BL_at m c ⟨0, h⟩]
      exact congrArg (BL m c) (by show 0 = 0 / 64 * 64 + (r.val * 128 + q.val); omega)
    · rw [if_neg (by omega), if_neg (by omega)]
  | n + 1, h, r, q => by
    have hN : cfg0.N = 128 := N_0
    have hc := (coords_facts ⟨n + 1, h⟩).2
    by_cases h0 : (n + 1) % 64 = 0
    · rw [outsAt0_A m c ⟨n + 1, h⟩ h0, out_A, hS _ (by rw [hc]; omega), zeroTile_apply, zero_add, hc]
      show (if r.val * 128 + q.val = (n + 1) % 64 then _ else 0) = _
      by_cases hs : r.val * 128 + q.val = 0
      · rw [if_pos (by omega), if_pos (by omega)]
        rw [BL_at m c ⟨n + 1, h⟩]
        exact congrArg (BL m c) (by show n + 1 = (n + 1) / 64 * 64 + (r.val * 128 + q.val); omega)
      · rw [if_neg (by omega), if_neg (by omega)]
    · rw [outsAt0_B m c ⟨n + 1, h⟩ h0, out_B, hS _ (by rw [hc]; omega), hc]
      show outsAt0 m c n _ (ix2 r q) + (if r.val * 128 + q.val = (n + 1) % 64 then _ else 0) = _
      rw [outsAt_apply hS c n (Nat.lt_of_succ_lt h) r q]
      by_cases hs : r.val * 128 + q.val ≤ n % 64
      · rw [if_pos hs, if_neg (by omega), add_zero, if_pos (by omega)]
        congr 1; omega
      · rw [if_neg hs, zero_add]
        by_cases hs' : r.val * 128 + q.val = (n + 1) % 64
        · rw [if_pos hs', if_pos (by omega)]
          rw [BL_at m c ⟨n + 1, h⟩]
          exact congrArg (BL m c) (by show n + 1 = (n + 1) / 64 * 64 + (r.val * 128 + q.val); omega)
        · rw [if_neg hs', if_neg (by omega)]

end Cert.KernelIdeal.KAcc

end
-- ==== Proof.KFinal.lean ====
/-
  The output array after the run, the two host lines after the region, and the kernel program's run read as a value.

  The output window's block at point t is rows [8 (t / 64), 8 (t / 64) + 8) of the 16 x 128 array, written back at
  the two points with inner coordinate 63. What is written back there is the tile after sixty-four points: slot s
  holds block 64 (t / 64) + s for s < 64 and zero elsewhere. The two write-backs tile the array, so the array ends at
  the function of Bridge (finalArr) of the two arguments; the host then sums it from zero and divides by 2^22.
-/
import proofs.«405338_j9732395893213_2_alg».proof.Proof.KAcc

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen Cert.KernelIdeal.KForms Cert.KernelIdeal.KBody Cert.KernelIdeal.KAcc DenseRows

variable (m : (ℓ : Loc nD τ sig) → Buf (Elt Ideal) ℓ) (ρ : Dev nD → PrngReg)

/-- The output array after the run, as a function of the two arguments. -/
def finalV (c : Dev nD) : Buf (Elt Ideal) ((c : Thread nD τ).loc main_v2) :=
  Pom.finalArr (m ((c : Thread nD τ).loc main_arg0)) (m ((c : Thread nD τ).loc main_arg1))

/-- The output array's function at an index whose coordinates are R and q. -/
theorem finalV_at (c : Dev nD) (i : S16x128.Idx) (R q : ℕ) (h0 : (i 0).val = R) (h1 : (i 1).val = q) :
    finalV m c i = if R % 8 * 128 + q < 64 then
      Pom.blockSum (m ((c : Thread nD τ).loc main_arg0)) (m ((c : Thread nD τ).loc main_arg1)) (R / 8 * 64 + (R % 8 * 128 + q))
      else 0 := by
  unfold finalV Pom.finalArr
  dsimp only
  rw [h0, h1]

/-- The output window's blocks are whole tiles. -/
theorem xsize_facts : ∀ t : Fin cfg0.N, win0_2.xsize (grid0.coords t) (0 : Fin 2) = 8 ∧ win0_2.xsize (grid0.coords t) (1 : Fin 2) = 128 :=
  (by decide +kernel : ∀ t : Fin grid0.N, win0_2.xsize (grid0.coords t) (0 : Fin 2) = 8 ∧ win0_2.xsize (grid0.coords t) (1 : Fin 2) = 128)

/-- An index of the array lies in point t's block when each coordinate lies in the block's range. -/
theorem mem_blk2 (t : Fin cfg0.N) (i : S16x128.Idx) :
    i ∈ ((cfg0.win 2).blk t).view.set ↔ ∀ a : Fin 2, win0_2.index t a * win0_2.size a ≤ (i a : ℕ)
      ∧ (i a : ℕ) < win0_2.index t a * win0_2.size a + win0_2.xsize (grid0.coords t) a := by
  show i ∈ ((View.whole main_v2).slice (win0_2.rect t)).set ↔ _
  rw [View.set_slice_whole, Rect.mem_set_unit]
  exact Iff.rfl

/-- What a write-back writes is its block of the output array's function. -/
theorem flushed_eq (hS : StoredSpec) (c : Dev nD) (t : Fin cfg0.N) (hf : (cfg0.win 2).flush t = true) :
    (dats m 0 c).flushed 2 t = ((cfg0.win 2).blk t).view.read (Elt Ideal) (finalV m c) := by
  have hN : cfg0.N = 128 := N_0
  have h63 : t.val % 64 = 63 := (flush0_2 t).mp hf
  have htl := t.isLt
  obtain ⟨-, -, -, -, h20, h21⟩ := idx_facts t
  obtain ⟨hx0, hx1⟩ := xsize_facts t
  show (cfg0.win 2).cut (grid0.coords t) ((dats m 0 c).after 2 t) = _
  rw [after0_2]
  funext y
  have hy0 : (y 0).val < 8 := lt_of_lt_of_eq (y 0).isLt hx0
  have hy1 : (y 1).val < 128 := lt_of_lt_of_eq (y 1).isLt hx1
  have e1 : (cfg0.win 2).xinj (grid0.coords t) y = ix2 (⟨(y 0).val, hy0⟩ : Fin 8) (⟨(y 1).val, hy1⟩ : Fin 128) := by
    funext a
    match a with
    | ⟨0, _⟩ => rfl
    | ⟨1, _⟩ => rfl
  show outsAt0 m c t.val t.isLt ((cfg0.win 2).xinj (grid0.coords t) y) = _
  rw [e1, outsAt_apply m hS, View.read_apply]
  have ee0 : ((((cfg0.win 2).blk t).view.emb y) 0 : ℕ) = t.val / 64 * 8 + (y 0).val := by
    show win0_2.index t (0 : Fin 2) * 8 + 1 * (y 0).val = _
    rw [h20]; omega
  have ee1 : ((((cfg0.win 2).blk t).view.emb y) 1 : ℕ) = (y 1).val := by
    show win0_2.index t (1 : Fin 2) * 128 + 1 * (y 1).val = _
    rw [h21]; omega
  show _ = finalV m c (((cfg0.win 2).blk t).view.emb y)
  rw [finalV_at m c _ _ _ ee0 ee1]
  show (if (y 0).val * 128 + (y 1).val ≤ t.val % 64 then BL m c (t.val / 64 * 64 + ((y 0).val * 128 + (y 1).val)) else 0) = _
  by_cases hs : (y 0).val * 128 + (y 1).val ≤ t.val % 64
  · rw [if_pos hs, if_pos (by omega), BL_eq m c _ (by omega)]
    exact congrArg (Pom.blockSum _ _) (by omega)
  · rw [if_neg hs, if_neg (by omega)]

/-- So the output array ends at its function of the two arguments. -/
theorem final_v2 (hS : StoredSpec) (c : Dev nD) : (dats m 0 c).arrAt 2 cfg0.N = finalV m c :=
  (dats m 0 c).arrAt_eq_of_cover 2 (finalV m c) (flushed_eq m hS c) fun i => by
    have hN : cfg0.N = 128 := N_0
    have hi0 : (i 0 : ℕ) < 16 := (i 0).isLt
    have hi1 : (i 1 : ℕ) < 128 := (i 1).isLt
    have ht : (i 0 : ℕ) / 8 * 64 + 63 < cfg0.N := by omega
    refine ⟨⟨(i 0 : ℕ) / 8 * 64 + 63, ht⟩, (flush0_2 _).mpr (by show ((i 0 : ℕ) / 8 * 64 + 63) % 64 = 63; omega), ?_⟩
    obtain ⟨-, -, -, -, h20, h21⟩ := idx_facts ⟨(i 0 : ℕ) / 8 * 64 + 63, ht⟩
    obtain ⟨hx0, hx1⟩ := xsize_facts ⟨(i 0 : ℕ) / 8 * 64 + 63, ht⟩
    rw [mem_blk2]
    intro a
    match a with
    | ⟨0, _⟩ =>
      show win0_2.index _ (0 : Fin 2) * 8 ≤ (i 0 : ℕ) ∧ (i 0 : ℕ) < win0_2.index _ (0 : Fin 2) * 8 + win0_2.xsize _ (0 : Fin 2)
      rw [h20, hx0]
      show ((i 0 : ℕ) / 8 * 64 + 63) / 64 * 8 ≤ (i 0 : ℕ) ∧ (i 0 : ℕ) < ((i 0 : ℕ) / 8 * 64 + 63) / 64 * 8 + 8
      omega
    | ⟨1, _⟩ =>
      show win0_2.index _ (1 : Fin 2) * 128 ≤ (i 1 : ℕ) ∧ (i 1 : ℕ) < win0_2.index _ (1 : Fin 2) * 128 + win0_2.xsize _ (1 : Fin 2)
      rw [h21, hx1]
      omega

/-- The two host lines after the region: the array summed from zero, over 2^22: the loss of the two arguments. -/
theorem tail_eq (hS : StoredSpec) (c : Dev nD) :
    Pipeline.afterTail₀ cfgs (dats m) 0 (V0 m) [hostOps1] c main_v4
      = fun _ => Pom.total (m ((c : Thread nD τ).loc main_arg0)) (m ((c : Thread nD τ).loc main_arg1)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v2)
      = finalV m c :=
    (Pipeline.withArrays_arr spec0 launch0.win.arr_inj c _ _ 2).trans (final_v2 m hS c)
  rw [hw]
  funext x
  show Ideal.div (Ideal.hostReduceAdd reducesTo_S16x128_S_d0_1
      (Pom.finalArr (m ((c : Thread nD τ).loc main_arg0)) (m ((c : Thread nD τ).loc main_arg1))) (Ideal.ofBits .f32 0#32) x)
    (Ideal.ofBits .f32 1249902592#32) = Pom.total _ _
  rw [Ideal.hostReduceAdd_total _ (fun b => b.elim0), Ideal.ofBits_zero_f32, zero_add, Pom.sum_finalArr]
  rfl

/-- The kernel program's run read as a value: the result buffer ends at the loss of the two arguments, and the
    arguments end unchanged. -/
theorem run (hS : StoredSpec) : θ_run defs (onTc (τ := τ) (main (F := Ideal))) ⟨m, fun _ => 0, ρ⟩ fun r => ∀ c : Dev nD,
      r.2.mem ((c.tc : Thread nD τ).loc main_v4)
          = (fun _ => Pom.total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m hS c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KFinal

end
-- ==== Proof.RefRun.lean ====
/-
  The reference program as a straight line of its seventy-two host operations, the three outlined functions
  (the clip, the take along the class axis, the where) written out at their calls over the calls' own buffers,
  and its run: every weakly fair execution terminates with every buffer at the operations' fold over the
  launch contents.
-/
import proofs.«405338_j9732395893213_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order, the calls unfolded. -/
abbrev ops : List (HloOp τ sig (Elt F)) :=
  [
    nullary main_c (fun i => lit0 (S3.rowMajor i)),
    nullary main_cst (constant S_ .f32 0xFF800000#32),
    binary main_arg0 main_cst main_v0 ((fun x v => Host.reduce FloatOps.maximumf x v reducesTo_S4194304x7_S4194304_d1 h_S_) : (⟨S4194304x7, .f32⟩ : BufTy).Contents (Elt F) → (⟨S_, .f32⟩ : BufTy).Contents (Elt F) → (⟨S4194304, .f32⟩ : BufTy).Contents (Elt F)),
    nullary main_cst_0 (constant S_ .f32 0xFF800000#32),
    unary main_cst_0 main_v1 (broadcastInDim S4194304 ![] bcast_S_S4194304 : (⟨S_, .f32⟩ : BufTy).Contents (Elt F) → (⟨S4194304, .f32⟩ : BufTy).Contents (Elt F)),
    binary main_v1 main_v0 main_v2 (maximumf : (⟨S4194304, .f32⟩ : BufTy).Contents (Elt F) → (⟨S4194304, .f32⟩ : BufTy).Contents (Elt F) → (⟨S4194304, .f32⟩ : BufTy).Contents (Elt F)),
    unary main_v2 main_v3 (broadcastInDim S4194304x1 ![0] bcast_S4194304_S4194304x1_0 : (⟨S4194304, .f32⟩ : BufTy).Contents (Elt F) → (⟨S4194304x1, .f32⟩ : BufTy).Contents (Elt F)),
    unary main_v3 main_v4 (broadcastInDim S4194304x7 ![0, 1] bcast_S4194304x1_S4194304x7_0_1 : (⟨S4194304x1, .f32⟩ : BufTy).Contents (Elt F) → (⟨S4194304x7, .f32⟩ : BufTy).Contents (Elt F)),
    binary main_arg0 main_v4 main_v5 (subf : (⟨S4194304x7, .f32⟩ : BufTy).Contents (Elt F) → (⟨S4194304x7, .f32⟩ : BufTy).Contents (Elt F) → (⟨S4194304x7, .f32⟩ : BufTy).Contents (Elt F)),
    unary main_v5 main_v6 (Host.exp : (⟨S4194304x7, .f32⟩ : BufTy).Contents (Elt F) → (⟨S4194304x7, .f32⟩ : BufTy).Contents (Elt F)),
    nullary main_cst_1 (constant S_ .f32 0x00000000#32),
    binary main_v6 main_cst_1 main_v7 ((fun x v => Host.reduceAdd x v reducesTo_S4194304x7_S4194304_d1 h_S_) : (⟨S4194304x7, .f32⟩ : BufTy).Contents (Elt F) → (⟨S_, .f32⟩ : BufTy).Contents (Elt F) → (⟨S4194304, .f32⟩ : BufTy).Contents (Elt F)),
    unary main_v7 main_v8 (broadcastInDim S4194304x1 ![0] bcast_S4194304_S4194304x1_0 : (⟨S4194304, .f32⟩ : BufTy).Contents (Elt F) → (⟨S4194304x1, .f32⟩ : BufTy).Contents (Elt F)),
    unary main_v8 main_v9 (broadcastInDim S4194304x7 ![0, 1] bcast_S4194304x1_S4194304x7_0_1 : (⟨S4194304x1, .f32⟩ : BufTy).Contents (Elt F) → (⟨S4194304x7, .f32⟩ : BufTy).Contents (Elt F)),
    binary main_v6 main_v9 main_v10 (Host.divf : (⟨S4194304x7, .f32⟩ : BufTy).Contents (Elt F) → (⟨S4194304x7, .f32⟩ : BufTy).Contents (Elt F) → (⟨S4194304x7, .f32⟩ : BufTy).Contents (Elt F)),
    unary main_arg1 main_v11 (broadcastInDim S4194304x1 ![0] bcast_S4194304_S4194304x1_0 : (⟨S4194304, .i32⟩ : BufTy).Contents (Elt F) → (⟨S4194304x1, .i32⟩ : BufTy).Contents (Elt F)),
    unary main_c main_v12 (broadcastInDim S1x3 ![1] bcast_S3_S1x3_1 : (⟨S3, .i32⟩ : BufTy).Contents (Elt F) → (⟨S1x3, .i32⟩ : BufTy).Contents (Elt F)),
    unary main_v11 main_v13 (broadcastInDim S4194304x3 ![0, 1] bcast_S4194304x1_S4194304x3_0_1 : (⟨S4194304x1, .i32⟩ : BufTy).Contents (Elt F) → (⟨S4194304x3, .i32⟩ : BufTy).Contents (Elt F)),
    unary main_v12 main_v14 (broadcastInDim S4194304x3 ![0, 1] bcast_S1x3_S4194304x3_0_1 : (⟨S1x3, .i32⟩ : BufTy).Contents (Elt F) → (⟨S4194304x3, .i32⟩ : BufTy).Contents (Elt F)),
    binary main_v13 main_v14 main_v15 (addi : (⟨S4194304x3, .i32⟩ : BufTy).Contents (Elt F) → (⟨S4194304x3, .i32⟩ : BufTy).Contents (Elt F) → (⟨S4194304x3, .i32⟩ : BufTy).Contents (Elt F)),
    nullary main_c_2 (constantI S_ 32 0#32),
    unary main_c_2 main_v16 (broadcastInDim S4194304x3 ![] bcast_S_S4194304x3 : (⟨S_, .i32⟩ : BufTy).Contents (Elt F) → (⟨S4194304x3, .i32⟩ : BufTy).Contents (Elt F)),
    binary main_v15 main_v16 main_v17 (cmpi .sge : (⟨S4194304x3, .i32⟩ : BufTy).Contents (Elt F) → (⟨S4194304x3, .i32⟩ : BufTy).Contents (Elt F) → (⟨S4194304x3, .i1⟩ : BufTy).Contents (Elt F)),
    nullary main_c_3 (constantI S_ 32 7#32),
    unary main_c_3 main_v18 (broadcastInDim S4194304x3 ![] bcast_S_S4194304x3 : (⟨S_, .i32⟩ : BufTy).Contents (Elt F) → (⟨S4194304x3, .i32⟩ : BufTy).Contents (Elt F)),
    binary main_v15 main_v18 main_v19 (cmpi .slt : (⟨S4194304x3, .i32⟩ : BufTy).Contents (Elt F) → (⟨S4194304x3, .i32⟩ : BufTy).Contents (Elt F) → (⟨S4194304x3, .i1⟩ : BufTy).Contents (Elt F)),
    binary main_v17 main_v19 main_v20 (andi : (⟨S4194304x3, .i1⟩ : BufTy).Contents (Elt F) → (⟨S4194304x3, .i1⟩ : BufTy).Contents (Elt F) → (⟨S4194304x3, .i1⟩ : BufTy).Contents (Elt F)),
    nullary main_c_4 (constantI S_ 32 0#32),
    nullary main_c_5 (constantI S_ 32 6#32),
    TRef.unary (.of main_c_4) main_call0.v0 id,
    TRef.unary main_call0.v0 main_call0.v1 (broadcastInDim S4194304x3 ![] bcast_S_S4194304x3),
    TRef.binary main_call0.v1 (.of main_v15) main_call0.v2 maxsi,
    TRef.unary (.of main_c_5) main_call0.v3 id,
    TRef.unary main_call0.v3 main_call0.v4 (broadcastInDim S4194304x3 ![] bcast_S_S4194304x3),
    TRef.binary main_call0.v4 main_call0.v2 main_call0.v5 minsi,
    TRef.nullary main_call1.c (constantI S_ 32 0#32),
    TRef.unary main_call1.c main_call1.v0 (broadcastInDim S4194304x3 ![] bcast_S_S4194304x3),
    TRef.binary (.of main_v21) main_call1.v0 main_call1.v1 (cmpi .slt),
    TRef.nullary main_call1.c_0 (constantI S_ 32 7#32),
    TRef.unary main_call1.c_0 main_call1.v2 (broadcastInDim S4194304x3 ![] bcast_S_S4194304x3),
    TRef.binary (.of main_v21) main_call1.v2 main_call1.v3 addi,
    TRef.ternary main_call1.v1 main_call1.v3 (.of main_v21) main_call1.v4 select,
    TRef.reshape main_call1.v4 main_call1.v5 rfl shapeCasts_S4194304x3_S4194304x3x1,
    TRef.nullary main_call1.c_1 (constantI S1 32 6#32),
    TRef.nullary main_call1.c_2 (constantI S_ 32 0#32),
    TRef.unary main_call1.c_2 main_call1.v6 (broadcastInDim S4194304x3x1 ![] bcast_S_S4194304x3x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4194304x3x1 ![0, 1, 2] bcast_S1x1x1_S4194304x3x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4194304x3x1_S4194304x3_d2 h_S_),
    TRef.binary (.of main_v10) main_call1.v5 main_call1.v13 (fun x i => Host.gather gather_S4194304x7_S4194304x3x1_S4194304x3_n_1_0_0_1_2_11 x i),
    TRef.nullary main_call1.cst (constant S_ .f32 0x7FC00000#32),
    TRef.unary main_call1.cst main_call1.v14 (broadcastInDim S4194304x3 ![] bcast_S_S4194304x3),
    TRef.ternary main_call1.v12 main_call1.v13 main_call1.v14 main_call1.v15 select,
    nullary main_cst_6 (constant S_ .f32 0x2EDBE6FF#32),
    unary main_cst_6 main_v23 (broadcastInDim S4194304x3 ![] bcast_S_S4194304x3 : (⟨S_, .f32⟩ : BufTy).Contents (Elt F) → (⟨S4194304x3, .f32⟩ : BufTy).Contents (Elt F)),
    binary main_v22 main_v23 main_v24 (addf : (⟨S4194304x3, .f32⟩ : BufTy).Contents (Elt F) → (⟨S4194304x3, .f32⟩ : BufTy).Contents (Elt F) → (⟨S4194304x3, .f32⟩ : BufTy).Contents (Elt F)),
    unary main_v24 main_v25 (Host.log : (⟨S4194304x3, .f32⟩ : BufTy).Contents (Elt F) → (⟨S4194304x3, .f32⟩ : BufTy).Contents (Elt F)),
    nullary main_cst_7 (constant S_ .f32 0x00000000#32),
    TRef.unary (.of main_cst_7) main_call2.v0 id,
    TRef.unary main_call2.v0 main_call2.v1 (broadcastInDim S4194304x3 ![] bcast_S_S4194304x3),
    TRef.ternary (.of main_v20) (.of main_v25) main_call2.v1 main_call2.v2 select,
    nullary main_cst_8 (constant S_ .f32 0x00000000#32),
    binary main_v26 main_cst_8 main_v27 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    unary main_v27 main_v28 (Host.negf : (⟨S4194304, .f32⟩ : BufTy).Contents (Elt F) → (⟨S4194304, .f32⟩ : BufTy).Contents (Elt F)),
    nullary main_cst_9 (constant S_ .f32 0x00000000#32),
    binary main_v28 main_cst_9 main_v29 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_10 (constant S_ .f32 0x4A800000#32),
    binary main_v29 main_cst_10 main_v30 (Host.divf : (⟨S_, .f32⟩ : BufTy).Contents (Elt F) → (⟨S_, .f32⟩ : BufTy).Contents (Elt F) → (⟨S_, .f32⟩ : BufTy).Contents (Elt F)) ]

set_option maxRecDepth 4096 in
set_option maxHeartbeats 4000000 in
/-- @main is that straight line: the functions' bodies unfolded at their calls, sequencing reassociated. -/
theorem main_eq (c : Dev nD) : main (F := F) c = seq ops := by
  simp only [main, fn_clip.body, fn_take_along_axis.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., unary_bufs_sub .., unary_bufs_sub .., unary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., nullary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    binary_bufs_sub .., unary_bufs_sub .., nullary_bufs_sub .., binary_bufs_sub .., nullary_bufs_sub .., binary_bufs_sub ..⟩

/-- Every weakly fair execution of @main terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's result as one term of its two arguments, stage by stage: the row-wise softmax in the host's
  spelling, the three neighbour class words of every row, their validity and their clipping, the take of the
  clipped class's probability (a gather along the class axis behind a range test that fills with a filler word),
  the logarithms, the masked terms, each row's negated sum and the mean.
-/
import proofs.«405338_j9732395893213_2_alg».proof.Proof.Gen.ReferenceIdeal
import Idealize.ShloMosaic.PureOps.Ideal

noncomputable section

namespace Cert.ReferenceIdeal.RefTerm

open Cert.ReferenceIdeal Cert.ReferenceIdeal.Gen Idealize.ShloMosaic

/-- The logits: 2^22 rows of seven extended reals. -/
abbrev Logits : Type := FVec Ideal S4194304x7 .f32
/-- The targets: 2^22 words. -/
abbrev Targets : Type := IVec S4194304 32

/-- Each row's maximum (with one more maximum against minus infinity, as the host takes it). -/
def rowMaxes (Z : Logits) : FVec Ideal S4194304 .f32 :=
  maximumf (broadcastInDim S4194304 ![] bcast_S_S4194304 (constant S_ .f32 0xFF800000#32))
    (Host.reduce FloatOps.maximumf Z (constant S_ .f32 0xFF800000#32) reducesTo_S4194304x7_S4194304_d1 h_S_)

/-- The exponentials of the distances to the row's maximum. -/
def exps (Z : Logits) : FVec Ideal S4194304x7 .f32 :=
  Host.exp (subf Z (broadcastInDim S4194304x7 ![0, 1] bcast_S4194304x1_S4194304x7_0_1
    (broadcastInDim S4194304x1 ![0] bcast_S4194304_S4194304x1_0 (rowMaxes Z))))

/-- The probabilities: each exponential over its row's sum. -/
def probs (Z : Logits) : FVec Ideal S4194304x7 .f32 :=
  Host.divf (exps Z) (broadcastInDim S4194304x7 ![0, 1] bcast_S4194304x1_S4194304x7_0_1
    (broadcastInDim S4194304x1 ![0] bcast_S4194304_S4194304x1_0
      (Host.reduceAdd (exps Z) (constant S_ .f32 0x00000000#32) reducesTo_S4194304x7_S4194304_d1 h_S_)))

/-- The three neighbour class words of every row: the target plus -1, 0, 1. -/
def cls (T : Targets) : IVec S4194304x3 32 :=
  addi (broadcastInDim S4194304x3 ![0, 1] bcast_S4194304x1_S4194304x3_0_1
      (broadcastInDim S4194304x1 ![0] bcast_S4194304_S4194304x1_0 T))
    (broadcastInDim S4194304x3 ![0, 1] bcast_S1x3_S4194304x3_0_1
      (broadcastInDim S1x3 ![1] bcast_S3_S1x3_1 (fun i => lit0 (S3.rowMajor i))))

/-- Which of them are class numbers. -/
def valid (T : Targets) : IVec S4194304x3 1 :=
  andi (cmpi .sge (cls T) (broadcastInDim S4194304x3 ![] bcast_S_S4194304x3 (constantI S_ 32 0#32)))
    (cmpi .slt (cls T) (broadcastInDim S4194304x3 ![] bcast_S_S4194304x3 (constantI S_ 32 7#32)))

/-- The class words clipped into [0, 6]. -/
def clipped (T : Targets) : IVec S4194304x3 32 :=
  minsi (broadcastInDim S4194304x3 ![] bcast_S_S4194304x3 (id (constantI S_ 32 6#32)))
    (maxsi (broadcastInDim S4194304x3 ![] bcast_S_S4194304x3 (id (constantI S_ 32 0#32))) (cls T))

/-- The take's start indices: a negative index moved up by seven, then a trailing unit axis. -/
def startIdx (T : Targets) : IVec S4194304x3x1 32 :=
  shapeCast S4194304x3x1
    (select (cmpi .slt (clipped T) (broadcastInDim S4194304x3 ![] bcast_S_S4194304x3 (constantI S_ 32 0#32)))
      (addi (clipped T) (broadcastInDim S4194304x3 ![] bcast_S_S4194304x3 (constantI S_ 32 7#32)))
      (clipped T))
    shapeCasts_S4194304x3_S4194304x3x1

/-- The take's range test: every start index within [0, 6]. -/
def inRange (T : Targets) : IVec S4194304x3 1 :=
  Host.reduce IntOp.andi
    (andi (cmpi .sge (startIdx T) (broadcastInDim S4194304x3x1 ![] bcast_S_S4194304x3x1 (constantI S_ 32 0#32)))
      (cmpi .sle (startIdx T) (broadcastInDim S4194304x3x1 ![0, 1, 2] bcast_S1x1x1_S4194304x3x1_0_1_2
        (broadcastInDim S1x1x1 ![2] bcast_S1_S1x1x1_2 (constantI S1 32 6#32)))))
    (constantI S_ 1 1#1) reducesTo_S4194304x3x1_S4194304x3_d2 h_S_

/-- The probabilities taken at the clipped classes (a filler where the range test fails). -/
def taken (Z : Logits) (T : Targets) : FVec Ideal S4194304x3 .f32 :=
  select (inRange T) (Host.gather gather_S4194304x7_S4194304x3x1_S4194304x3_n_1_0_0_1_2_11 (probs Z) (startIdx T))
    (broadcastInDim S4194304x3 ![] bcast_S_S4194304x3 (constant S_ .f32 0x7FC00000#32))

/-- Their logarithms, the small constant added first. -/
def logs (Z : Logits) (T : Targets) : FVec Ideal S4194304x3 .f32 :=
  Host.log (addf (taken Z T) (broadcastInDim S4194304x3 ![] bcast_S_S4194304x3 (constant S_ .f32 0x2EDBE6FF#32)))

/-- The terms: a logarithm where the class word is valid, else zero. -/
def terms (Z : Logits) (T : Targets) : FVec Ideal S4194304x3 .f32 :=
  select (valid T) (logs Z T) (broadcastInDim S4194304x3 ![] bcast_S_S4194304x3 (id (constant S_ .f32 0x00000000#32)))

/-- Each row's loss: its three terms summed, negated. -/
def perRow (Z : Logits) (T : Targets) : FVec Ideal S4194304 .f32 :=
  Host.negf (Host.reduceAdd (terms Z T) (constant S_ .f32 0x00000000#32) reducesTo_S4194304x3_S4194304_d1 h_S_)

/-- The result: the rows' losses summed, over 2^22. -/
def result (Z : Logits) (T : Targets) : FVec Ideal S_ .f32 :=
  Host.divf (Host.reduceAdd (perRow Z T) (constant S_ .f32 0x00000000#32) reducesTo_S4194304_S_d0 h_S_)
    (constant S_ .f32 0x4A800000#32)

end Cert.ReferenceIdeal.RefTerm

end
-- ==== Proof.RefRead.lean ====
/-
  The reference's run read back: its result buffer ends at the staged term of RefTerm over the two argument
  arrays, and the argument arrays end unchanged. The seventy-two operations are read in six stretches — the softmax,
  the class words and their validity, the clipping, the take, the logarithms and the sums — each over any contents
  of the buffers it reads, and the stretches are then chained.
-/
import proofs.«405338_j9732395893213_2_alg».proof.Proof.RefRun
import proofs.«405338_j9732395893213_2_alg».proof.Proof.RefTerm

-- one declaration at a time: each stretch's fold is unfolded by one rewriting pass that holds a few gigabytes while it runs
set_option Elab.async false

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

/-- The fold over two lists laid end to end is the fold over the second after the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {F : FTy → Type} [FloatOps F]

/-- The softmax's fifteen operations. -/
abbrev seg1 : List (HloOp τ sig (Elt F)) :=
  [
    nullary main_c (fun i => lit0 (S3.rowMajor i)),
    nullary main_cst (constant S_ .f32 0xFF800000#32),
    binary main_arg0 main_cst main_v0 ((fun x v => Host.reduce FloatOps.maximumf x v reducesTo_S4194304x7_S4194304_d1 h_S_) : (⟨S4194304x7, .f32⟩ : BufTy).Contents (Elt F) → (⟨S_, .f32⟩ : BufTy).Contents (Elt F) → (⟨S4194304, .f32⟩ : BufTy).Contents (Elt F)),
    nullary main_cst_0 (constant S_ .f32 0xFF800000#32),
    unary main_cst_0 main_v1 (broadcastInDim S4194304 ![] bcast_S_S4194304 : (⟨S_, .f32⟩ : BufTy).Contents (Elt F) → (⟨S4194304, .f32⟩ : BufTy).Contents (Elt F)),
    binary main_v1 main_v0 main_v2 (maximumf : (⟨S4194304, .f32⟩ : BufTy).Contents (Elt F) → (⟨S4194304, .f32⟩ : BufTy).Contents (Elt F) → (⟨S4194304, .f32⟩ : BufTy).Contents (Elt F)),
    unary main_v2 main_v3 (broadcastInDim S4194304x1 ![0] bcast_S4194304_S4194304x1_0 : (⟨S4194304, .f32⟩ : BufTy).Contents (Elt F) → (⟨S4194304x1, .f32⟩ : BufTy).Contents (Elt F)),
    unary main_v3 main_v4 (broadcastInDim S4194304x7 ![0, 1] bcast_S4194304x1_S4194304x7_0_1 : (⟨S4194304x1, .f32⟩ : BufTy).Contents (Elt F) → (⟨S4194304x7, .f32⟩ : BufTy).Contents (Elt F)),
    binary main_arg0 main_v4 main_v5 (subf : (⟨S4194304x7, .f32⟩ : BufTy).Contents (Elt F) → (⟨S4194304x7, .f32⟩ : BufTy).Contents (Elt F) → (⟨S4194304x7, .f32⟩ : BufTy).Contents (Elt F)),
    unary main_v5 main_v6 (Host.exp : (⟨S4194304x7, .f32⟩ : BufTy).Contents (Elt F) → (⟨S4194304x7, .f32⟩ : BufTy).Contents (Elt F)),
    nullary main_cst_1 (constant S_ .f32 0x00000000#32),
    binary main_v6 main_cst_1 main_v7 ((fun x v => Host.reduceAdd x v reducesTo_S4194304x7_S4194304_d1 h_S_) : (⟨S4194304x7, .f32⟩ : BufTy).Contents (Elt F) → (⟨S_, .f32⟩ : BufTy).Contents (Elt F) → (⟨S4194304, .f32⟩ : BufTy).Contents (Elt F)),
    unary main_v7 main_v8 (broadcastInDim S4194304x1 ![0] bcast_S4194304_S4194304x1_0 : (⟨S4194304, .f32⟩ : BufTy).Contents (Elt F) → (⟨S4194304x1, .f32⟩ : BufTy).Contents (Elt F)),
    unary main_v8 main_v9 (broadcastInDim S4194304x7 ![0, 1] bcast_S4194304x1_S4194304x7_0_1 : (⟨S4194304x1, .f32⟩ : BufTy).Contents (Elt F) → (⟨S4194304x7, .f32⟩ : BufTy).Contents (Elt F)),
    binary main_v6 main_v9 main_v10 (Host.divf : (⟨S4194304x7, .f32⟩ : BufTy).Contents (Elt F) → (⟨S4194304x7, .f32⟩ : BufTy).Contents (Elt F) → (⟨S4194304x7, .f32⟩ : BufTy).Contents (Elt F)) ]
/-- The class words and their validity: twelve operations. -/
abbrev seg2 : List (HloOp τ sig (Elt F)) :=
  [
    unary main_arg1 main_v11 (broadcastInDim S4194304x1 ![0] bcast_S4194304_S4194304x1_0 : (⟨S4194304, .i32⟩ : BufTy).Contents (Elt F) → (⟨S4194304x1, .i32⟩ : BufTy).Contents (Elt F)),
    unary main_c main_v12 (broadcastInDim S1x3 ![1] bcast_S3_S1x3_1 : (⟨S3, .i32⟩ : BufTy).Contents (Elt F) → (⟨S1x3, .i32⟩ : BufTy).Contents (Elt F)),
    unary main_v11 main_v13 (broadcastInDim S4194304x3 ![0, 1] bcast_S4194304x1_S4194304x3_0_1 : (⟨S4194304x1, .i32⟩ : BufTy).Contents (Elt F) → (⟨S4194304x3, .i32⟩ : BufTy).Contents (Elt F)),
    unary main_v12 main_v14 (broadcastInDim S4194304x3 ![0, 1] bcast_S1x3_S4194304x3_0_1 : (⟨S1x3, .i32⟩ : BufTy).Contents (Elt F) → (⟨S4194304x3, .i32⟩ : BufTy).Contents (Elt F)),
    binary main_v13 main_v14 main_v15 (addi : (⟨S4194304x3, .i32⟩ : BufTy).Contents (Elt F) → (⟨S4194304x3, .i32⟩ : BufTy).Contents (Elt F) → (⟨S4194304x3, .i32⟩ : BufTy).Contents (Elt F)),
    nullary main_c_2 (constantI S_ 32 0#32),
    unary main_c_2 main_v16 (broadcastInDim S4194304x3 ![] bcast_S_S4194304x3 : (⟨S_, .i32⟩ : BufTy).Contents (Elt F) → (⟨S4194304x3, .i32⟩ : BufTy).Contents (Elt F)),
    binary main_v15 main_v16 main_v17 (cmpi .sge : (⟨S4194304x3, .i32⟩ : BufTy).Contents (Elt F) → (⟨S4194304x3, .i32⟩ : BufTy).Contents (Elt F) → (⟨S4194304x3, .i1⟩ : BufTy).Contents (Elt F)),
    nullary main_c_3 (constantI S_ 32 7#32),
    unary main_c_3 main_v18 (broadcastInDim S4194304x3 ![] bcast_S_S4194304x3 : (⟨S_, .i32⟩ : BufTy).Contents (Elt F) → (⟨S4194304x3, .i32⟩ : BufTy).Contents (Elt F)),
    binary main_v15 main_v18 main_v19 (cmpi .slt : (⟨S4194304x3, .i32⟩ : BufTy).Contents (Elt F) → (⟨S4194304x3, .i32⟩ : BufTy).Contents (Elt F) → (⟨S4194304x3, .i1⟩ : BufTy).Contents (Elt F)),
    binary main_v17 main_v19 main_v20 (andi : (⟨S4194304x3, .i1⟩ : BufTy).Contents (Elt F) → (⟨S4194304x3, .i1⟩ : BufTy).Contents (Elt F) → (⟨S4194304x3, .i1⟩ : BufTy).Contents (Elt F)) ]
/-- The clipping: eight operations. -/
abbrev seg3 : List (HloOp τ sig (Elt F)) :=
  [
    nullary main_c_4 (constantI S_ 32 0#32),
    nullary main_c_5 (constantI S_ 32 6#32),
    TRef.unary (.of main_c_4) main_call0.v0 id,
    TRef.unary main_call0.v0 main_call0.v1 (broadcastInDim S4194304x3 ![] bcast_S_S4194304x3),
    TRef.binary main_call0.v1 (.of main_v15) main_call0.v2 maxsi,
    TRef.unary (.of main_c_5) main_call0.v3 id,
    TRef.unary main_call0.v3 main_call0.v4 (broadcastInDim S4194304x3 ![] bcast_S_S4194304x3),
    TRef.binary main_call0.v4 main_call0.v2 main_call0.v5 minsi ]
/-- The take's start indices: eight operations. -/
abbrev seg4a : List (HloOp τ sig (Elt F)) :=
  [
    TRef.nullary main_call1.c (constantI S_ 32 0#32),
    TRef.unary main_call1.c main_call1.v0 (broadcastInDim S4194304x3 ![] bcast_S_S4194304x3),
    TRef.binary (.of main_v21) main_call1.v0 main_call1.v1 (cmpi .slt),
    TRef.nullary main_call1.c_0 (constantI S_ 32 7#32),
    TRef.unary main_call1.c_0 main_call1.v2 (broadcastInDim S4194304x3 ![] bcast_S_S4194304x3),
    TRef.binary (.of main_v21) main_call1.v2 main_call1.v3 addi,
    TRef.ternary main_call1.v1 main_call1.v3 (.of main_v21) main_call1.v4 select,
    TRef.reshape main_call1.v4 main_call1.v5 rfl shapeCasts_S4194304x3_S4194304x3x1 ]
/-- The take's range test, its gather and its select: fourteen operations. -/
abbrev seg4b : List (HloOp τ sig (Elt F)) :=
  [
    TRef.nullary main_call1.c_1 (constantI S1 32 6#32),
    TRef.nullary main_call1.c_2 (constantI S_ 32 0#32),
    TRef.unary main_call1.c_2 main_call1.v6 (broadcastInDim S4194304x3x1 ![] bcast_S_S4194304x3x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4194304x3x1 ![0, 1, 2] bcast_S1x1x1_S4194304x3x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4194304x3x1_S4194304x3_d2 h_S_),
    TRef.binary (.of main_v10) main_call1.v5 main_call1.v13 (fun x i => Host.gather gather_S4194304x7_S4194304x3x1_S4194304x3_n_1_0_0_1_2_11 x i),
    TRef.nullary main_call1.cst (constant S_ .f32 0x7FC00000#32),
    TRef.unary main_call1.cst main_call1.v14 (broadcastInDim S4194304x3 ![] bcast_S_S4194304x3),
    TRef.ternary main_call1.v12 main_call1.v13 main_call1.v14 main_call1.v15 select ]
/-- The logarithms, the masked terms, the sums and the quotient: fifteen operations. -/
abbrev seg5 : List (HloOp τ sig (Elt F)) :=
  [
    nullary main_cst_6 (constant S_ .f32 0x2EDBE6FF#32),
    unary main_cst_6 main_v23 (broadcastInDim S4194304x3 ![] bcast_S_S4194304x3 : (⟨S_, .f32⟩ : BufTy).Contents (Elt F) → (⟨S4194304x3, .f32⟩ : BufTy).Contents (Elt F)),
    binary main_v22 main_v23 main_v24 (addf : (⟨S4194304x3, .f32⟩ : BufTy).Contents (Elt F) → (⟨S4194304x3, .f32⟩ : BufTy).Contents (Elt F) → (⟨S4194304x3, .f32⟩ : BufTy).Contents (Elt F)),
    unary main_v24 main_v25 (Host.log : (⟨S4194304x3, .f32⟩ : BufTy).Contents (Elt F) → (⟨S4194304x3, .f32⟩ : BufTy).Contents (Elt F)),
    nullary main_cst_7 (constant S_ .f32 0x00000000#32),
    TRef.unary (.of main_cst_7) main_call2.v0 id,
    TRef.unary main_call2.v0 main_call2.v1 (broadcastInDim S4194304x3 ![] bcast_S_S4194304x3),
    TRef.ternary (.of main_v20) (.of main_v25) main_call2.v1 main_call2.v2 select,
    nullary main_cst_8 (constant S_ .f32 0x00000000#32),
    binary main_v26 main_cst_8 main_v27 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    unary main_v27 main_v28 (Host.negf : (⟨S4194304, .f32⟩ : BufTy).Contents (Elt F) → (⟨S4194304, .f32⟩ : BufTy).Contents (Elt F)),
    nullary main_cst_9 (constant S_ .f32 0x00000000#32),
    binary main_v28 main_cst_9 main_v29 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_10 (constant S_ .f32 0x4A800000#32),
    binary main_v29 main_cst_10 main_v30 (Host.divf : (⟨S_, .f32⟩ : BufTy).Contents (Elt F) → (⟨S_, .f32⟩ : BufTy).Contents (Elt F) → (⟨S_, .f32⟩ : BufTy).Contents (Elt F)) ]

theorem ops_split : (ops (F := F)) = seg1 ++ (seg2 ++ (seg3 ++ (seg4a ++ (seg4b ++ seg5)))) := rfl

/-- A typed reference at its own buffer type moves contents by the identity. -/
theorem toBuf_id {Val : EltTy → Type} (r : Ref sig .tc) (hd : r.space ≠ .host) (hu : r.isScoped = false) (v : r.ty.Contents Val) :
    (TRef.of (T := r.ty) r rfl hd hu).toBuf v = v := rfl
theorem ofBuf_id {Val : EltTy → Type} (r : Ref sig .tc) (hd : r.space ≠ .host) (hu : r.isScoped = false) (v : r.ty.Contents Val) :
    (TRef.of (T := r.ty) r rfl hd hu).ofBuf v = v := rfl

variable (W : Valuation τ sig (Elt Ideal))

/-! ## The first stretch -/

attribute [local irreducible] Host.reduce Host.reduceAdd Host.gather Host.exp Host.log Host.divf Host.negf in
theorem s1_probs : after (seg1 (F := Ideal)) W (main_v10 : DevRef τ sig) = RefTerm.probs (W (main_arg0 : DevRef τ sig)) := by
  after_results_simp
  unfold RefTerm.probs RefTerm.exps RefTerm.rowMaxes
  rfl
theorem s1_c : after (seg1 (F := Ideal)) W (main_c : DevRef τ sig) = fun i => lit0 (S3.rowMajor i) := by
  after_results_simp
  rfl
theorem s1_arg1 : after (seg1 (F := Ideal)) W (main_arg1 : DevRef τ sig) = W (main_arg1 : DevRef τ sig) := by after_results_simp
theorem s1_arg0 : after (seg1 (F := Ideal)) W (main_arg0 : DevRef τ sig) = W (main_arg0 : DevRef τ sig) := by after_results_simp

/-! ## The second stretch -/

theorem s2_cls (T : RefTerm.Targets) (h1 : W (main_arg1 : DevRef τ sig) = T)
    (hc : W (main_c : DevRef τ sig) = fun i => lit0 (S3.rowMajor i)) :
    after (seg2 (F := Ideal)) W (main_v15 : DevRef τ sig) = RefTerm.cls T := by
  after_results_simp
  rw [h1, hc]
  rfl
theorem s2_valid (T : RefTerm.Targets) (h1 : W (main_arg1 : DevRef τ sig) = T)
    (hc : W (main_c : DevRef τ sig) = fun i => lit0 (S3.rowMajor i)) :
    after (seg2 (F := Ideal)) W (main_v20 : DevRef τ sig) = RefTerm.valid T := by
  after_results_simp
  rw [h1, hc]
  rfl
theorem s2_v10 : after (seg2 (F := Ideal)) W (main_v10 : DevRef τ sig) = W (main_v10 : DevRef τ sig) := by after_results_simp
theorem s2_arg0 : after (seg2 (F := Ideal)) W (main_arg0 : DevRef τ sig) = W (main_arg0 : DevRef τ sig) := by after_results_simp
theorem s2_arg1 : after (seg2 (F := Ideal)) W (main_arg1 : DevRef τ sig) = W (main_arg1 : DevRef τ sig) := by after_results_simp

/-! ## The third stretch -/

theorem s3_clipped (T : RefTerm.Targets) (h15 : W (main_v15 : DevRef τ sig) = RefTerm.cls T) :
    after (seg3 (F := Ideal)) W (main_v21 : DevRef τ sig) = RefTerm.clipped T := by
  after_results_simp
  simp only [cast_eq]
  rw [h15]
  rfl
theorem s3_v10 : after (seg3 (F := Ideal)) W (main_v10 : DevRef τ sig) = W (main_v10 : DevRef τ sig) := by after_results_simp
theorem s3_v20 : after (seg3 (F := Ideal)) W (main_v20 : DevRef τ sig) = W (main_v20 : DevRef τ sig) := by after_results_simp
theorem s3_arg0 : after (seg3 (F := Ideal)) W (main_arg0 : DevRef τ sig) = W (main_arg0 : DevRef τ sig) := by after_results_simp
theorem s3_arg1 : after (seg3 (F := Ideal)) W (main_arg1 : DevRef τ sig) = W (main_arg1 : DevRef τ sig) := by after_results_simp

/-! ## The fourth stretch, in two parts -/

theorem s4a_startIdx (T : RefTerm.Targets) (h21 : W (main_v21 : DevRef τ sig) = RefTerm.clipped T) :
    after (seg4a (F := Ideal)) W (main_call1_v5 : DevRef τ sig) = RefTerm.startIdx T := by
  after_results_simp
  simp only [cast_eq]
  rw [h21]
  show shapeCast S4194304x3x1 _ _ = _
  rfl
theorem s4a_v10 : after (seg4a (F := Ideal)) W (main_v10 : DevRef τ sig) = W (main_v10 : DevRef τ sig) := by after_results_simp
theorem s4a_v20 : after (seg4a (F := Ideal)) W (main_v20 : DevRef τ sig) = W (main_v20 : DevRef τ sig) := by after_results_simp
theorem s4a_arg0 : after (seg4a (F := Ideal)) W (main_arg0 : DevRef τ sig) = W (main_arg0 : DevRef τ sig) := by after_results_simp
theorem s4a_arg1 : after (seg4a (F := Ideal)) W (main_arg1 : DevRef τ sig) = W (main_arg1 : DevRef τ sig) := by after_results_simp

attribute [local irreducible] Host.reduce Host.reduceAdd Host.gather Host.exp Host.log Host.divf Host.negf in
theorem s4b_taken (Z : RefTerm.Logits) (T : RefTerm.Targets) (h10 : W (main_v10 : DevRef τ sig) = RefTerm.probs Z)
    (h5 : W (main_call1_v5 : DevRef τ sig) = RefTerm.startIdx T) :
    after (seg4b (F := Ideal)) W (main_v22 : DevRef τ sig) = RefTerm.taken Z T := by
  after_results
  repeat rw [toBuf_id]
  repeat rw [ofBuf_id]
  rw [h10, h5]
  rfl
theorem s4b_v20 : after (seg4b (F := Ideal)) W (main_v20 : DevRef τ sig) = W (main_v20 : DevRef τ sig) := by after_results_simp
theorem s4b_arg0 : after (seg4b (F := Ideal)) W (main_arg0 : DevRef τ sig) = W (main_arg0 : DevRef τ sig) := by after_results_simp
theorem s4b_arg1 : after (seg4b (F := Ideal)) W (main_arg1 : DevRef τ sig) = W (main_arg1 : DevRef τ sig) := by after_results_simp

/-! ## The fifth stretch -/

attribute [local irreducible] Host.reduce Host.reduceAdd Host.gather Host.exp Host.log Host.divf Host.negf in
theorem s5_result (Z : RefTerm.Logits) (T : RefTerm.Targets) (h22 : W (main_v22 : DevRef τ sig) = RefTerm.taken Z T)
    (h20 : W (main_v20 : DevRef τ sig) = RefTerm.valid T) :
    after (seg5 (F := Ideal)) W (main_v30 : DevRef τ sig) = RefTerm.result Z T := by
  after_results
  repeat rw [toBuf_id]
  repeat rw [ofBuf_id]
  rw [h22, h20]
  rfl
theorem s5_arg0 : after (seg5 (F := Ideal)) W (main_arg0 : DevRef τ sig) = W (main_arg0 : DevRef τ sig) := by after_results_simp
theorem s5_arg1 : after (seg5 (F := Ideal)) W (main_arg1 : DevRef τ sig) = W (main_arg1 : DevRef τ sig) := by after_results_simp

/-! ## The chain -/

/-- The fold of the operations at the result buffer is the staged term of the arguments. -/
theorem result_term (V : Valuation τ sig (Elt Ideal)) :
    after (ops (F := Ideal)) V (main_v30 : DevRef τ sig)
      = RefTerm.result (V (main_arg0 : DevRef τ sig)) (V (main_arg1 : DevRef τ sig)) := by
  rw [ops_split, after_append, after_append, after_append, after_append, after_append]
  refine s5_result _ _ _ ?_ ?_
  · refine s4b_taken _ _ _ ?_ ?_
    · rw [s4a_v10, s3_v10, s2_v10, s1_probs]
    · refine s4a_startIdx _ _ ?_
      refine s3_clipped _ _ ?_
      exact s2_cls _ _ (s1_arg1 V) (s1_c V)
  · rw [s4b_v20, s4a_v20, s3_v20]
    exact s2_valid _ _ (s1_arg1 V) (s1_c V)

/-- No operation writes the logits. -/
theorem arg0_kept (V : Valuation τ sig (Elt Ideal)) :
    after (ops (F := Ideal)) V (main_arg0 : DevRef τ sig) = V (main_arg0 : DevRef τ sig) := by
  rw [ops_split, after_append, after_append, after_append, after_append, after_append, s5_arg0, s4b_arg0, s4a_arg0, s3_arg0, s2_arg0,
    s1_arg0]

/-- No operation writes the targets. -/
theorem arg1_kept (V : Valuation τ sig (Elt Ideal)) :
    after (ops (F := Ideal)) V (main_arg1 : DevRef τ sig) = V (main_arg1 : DevRef τ sig) := by
  rw [ops_split, after_append, after_append, after_append, after_append, after_append, s5_arg1, s4b_arg1, s4a_arg1, s3_arg1, s2_arg1,
    s1_arg1]

/-- Every weakly fair execution of the reference terminates with its result at the staged term of the launch
    contents of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
          = RefTerm.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v30).trans (result_term _), (h c main_arg0).trans (arg0_kept _),
      (h c main_arg1).trans (arg1_kept _)⟩)
    (run_main m ρ)

end Cert.ReferenceIdeal.RefRead

end
-- ==== Proof.RefValue.lean ====
/-
  The reference's result term is the loss of Spec: stage by stage, each host operation read at an index.
-/
import proofs.«405338_j9732395893213_2_alg».proof.Proof.Spec
import proofs.«405338_j9732395893213_2_alg».proof.Proof.LibDenseForms
import proofs.«405338_j9732395893213_2_alg».proof.Proof.RefTerm

noncomputable section

open scoped BigOperators

namespace Cert.ReferenceIdeal.RefValue

open Cert.ReferenceIdeal Cert.ReferenceIdeal.Gen Cert.ReferenceIdeal.RefTerm Idealize.ShloMosaic Idealize.ShloMosaic.ValueIdx DenseRows

/-! ## Broadcasts read at an index -/

section Broadcasts
variable {α : Type}

/-- A scalar broadcast to any shape reads the scalar's one element everywhere. -/
theorem bcast0_apply {t : Shape} (h : (⟨0, ![]⟩ : Shape).BroadcastsInDim t ![]) (v : (⟨0, ![]⟩ : Shape).Idx → α) (j : t.Idx) :
    broadcastInDim t ![] h v j = v ix0 :=
  congrArg v (funext fun a => a.elim0)

/-- A vector broadcast to a column and the column across the rows reads, at (p, q), the vector at p. -/
theorem bcast_col_apply {m n : Nat} (v : (⟨1, ![m]⟩ : Shape).Idx → α)
    (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-- A vector broadcast to a one-row matrix and the row down the rows reads, at (p, q), the vector at q. -/
theorem bcast_row_apply {m n : Nat} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim (⟨2, ![m, n]⟩ : Shape) ![0, 1] h2 (broadcastInDim (⟨2, ![1, n]⟩ : Shape) ![1] h1 v) (ix2 p q) = v (ix1 q) := by
  rw [broadcastInDim_apply ![0, 1] h2 _ (ix2 p q) (ix2 (0 : Fin 1) q) (fun ax => by
    match ax with
    | ⟨0, _⟩ =>
      show 0 = if (1 : Nat) = 1 then 0 else p.val
      rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

end Broadcasts

/-! ## The probabilities -/

/-- The reference's probabilities are the row-wise softmax. -/
theorem probs_eq (Z : Logits) : probs Z = softmaxRows Z :=
  softmax_host_form Z reducesTo_S4194304x7_S4194304_d1 (by decide) h_S_ bcast_S_S4194304 bcast_S4194304_S4194304x1_0
    bcast_S4194304x1_S4194304x7_0_1

/-! ## The class words -/

/-- The three-word table at position k is the k-th neighbour offset. -/
theorem lit0_eq (k : Fin 3) : lit0 (S3.rowMajor (ix1 k)) = Pom.offW k := by
  have hk : S3.rowMajor (ix1 k) = k := Fin.ext (by rw [Shape.rowMajor_val_one])
  rw [hk]
  match k with
  | ⟨0, _⟩ => rfl
  | ⟨1, _⟩ => rfl
  | ⟨2, _⟩ => rfl

/-- The class word of row b and neighbour k: the target plus the k-th offset. -/
theorem cls_apply (T : Targets) (b : Fin Pom.NB) (k : Fin 3) :
    cls T (ix2 b k) = IntOp.addi (T (ix1 b)) (Pom.offW k) := by
  show IntOp.addi (broadcastInDim S4194304x3 ![0, 1] bcast_S4194304x1_S4194304x3_0_1
      (broadcastInDim S4194304x1 ![0] bcast_S4194304_S4194304x1_0 T) (ix2 b k))
    (broadcastInDim S4194304x3 ![0, 1] bcast_S1x3_S4194304x3_0_1
      (broadcastInDim S1x3 ![1] bcast_S3_S1x3_1 (fun i => lit0 (S3.rowMajor i))) (ix2 b k)) = _
  rw [bcast_col_apply, bcast_row_apply, lit0_eq]

/-- Validity at (b, k) is the validity of the class word. -/
theorem valid_apply (T : Targets) (b : Fin Pom.NB) (k : Fin 3) :
    valid T (ix2 b k) = Pom.validW (cls T (ix2 b k)) := rfl

/-- The clipped word at (b, k) is the clip of the class word. -/
theorem clipped_apply (T : Targets) (b : Fin Pom.NB) (k : Fin 3) :
    clipped T (ix2 b k) = Pom.clipW (cls T (ix2 b k)) := rfl

/-! ## The take's start indices and range test -/

section Layout
variable {α : Type}

/-- An `[a, b]` array cast to `[a, b, 1]` reads, at (i, j, u), the operand at (i, j), whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

end Layout

/-- A clipped word is not negative, read signed. -/
theorem clipW_not_neg (w : BitVec 32) : IntOp.cmpi .slt (Pom.clipW w) 0#32 = 0#1 := by
  apply eq_zero_of_ne_one
  have h := Pom.clipW_toNat_le w
  rw [StableHlo.Predicate.slt_iff_toNat (by omega) (by decide)]
  show ¬ (Pom.clipW w).toNat < 0
  omega

/-- A clipped word is at least zero, read signed. -/
theorem clipW_sge_zero (w : BitVec 32) : IntOp.cmpi .sge (Pom.clipW w) 0#32 = 1#1 := by
  have h := Pom.clipW_toNat_le w
  rw [StableHlo.Predicate.sge_iff_toNat (by omega) (by decide)]
  show 0 ≤ (Pom.clipW w).toNat
  omega

/-- A clipped word is at most six, read signed. -/
theorem clipW_sle_six (w : BitVec 32) : IntOp.cmpi .sle (Pom.clipW w) 6#32 = 1#1 := by
  have h := Pom.clipW_toNat_le w
  rw [StableHlo.Predicate.sle_iff_toNat (by omega) (by decide)]
  exact h

/-- The start index of row b and neighbour k is the clipped class word: the clipped word is never negative, so the
    select keeps it, and the cast to a trailing unit axis reads (b, k). -/
theorem startIdx_apply (T : Targets) (b : Fin Pom.NB) (k : Fin 3) (u : Fin 1) :
    startIdx T (ix3 b k u) = Pom.clipW (cls T (ix2 b k)) := by
  unfold startIdx
  rw [shapeCast_ab_ab1_apply]
  show Scalar.select (IntOp.cmpi .slt (Pom.clipW (cls T (ix2 b k))) 0#32)
    (IntOp.addi (Pom.clipW (cls T (ix2 b k))) 7#32) (Pom.clipW (cls T (ix2 b k))) = _
  rw [clipW_not_neg, select_zero]

/-- A left fold by `and` from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_one x hx l

/-- A reduce by `and` from 1 of an array of 1s is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-- The range test holds at every (b, k). -/
theorem inRange_apply (T : Targets) (b : Fin Pom.NB) (k : Fin 3) : inRange T (ix2 b k) = 1#1 := by
  unfold inRange
  refine reduce_andi_one _ _ _ _ (fun i => ?_) rfl _
  obtain ⟨b', k', u, rfl⟩ : ∃ (b' : Fin Pom.NB) (k' : Fin 3) (u : Fin 1), i = ix3 b' k' u := ⟨i 0, i 1, i 2, eq_ix3 i⟩
  show IntOp.andi (IntOp.cmpi .sge (startIdx T (ix3 b' k' u)) 0#32) (IntOp.cmpi .sle (startIdx T (ix3 b' k' u)) 6#32) = 1#1
  rw [startIdx_apply, clipW_sge_zero, clipW_sle_six]
  rfl

/-! ## A gather along the second axis, batched over the first -/

section Gather
variable {α : Type}

/-- The gather that takes, for every row b and each of e positions k, one element of row b of an n × f operand, at the
    column the start index at (b, k, 0) names: axis 0 is the batching axis (the result's row), axis 1 the collapsed,
    indexed axis. The column c read is the start index read signed and clamped into [0, f - 1] (`hc`). -/
theorem gather_along_apply {n f e w : Nat}
    (d : GatherDims ⟨2, ![n, f]⟩ ⟨3, ![n, e, 1]⟩ ⟨2, ![n, e]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![n, f]⟩ : Shape).Idx → α) (idx : IVec ⟨3, ![n, e, 1]⟩ w) (b : Fin n) (k : Fin e) (c : Fin f)
    (hc : c.val = min (idx (ix3 b k (0 : Fin 1))).toInt.toNat (f - 1)) :
    Host.gather d x idx (ix2 b k) = x (ix2 b c) := by
  obtain ⟨od, cd, ob, sb, sm, iv, ss, wf⟩ := d
  dsimp only at hoff hcoll hob hsb hsim hivd
  subst hoff hcoll hob hsb hsim hivd
  set D : GatherDims ⟨2, ![n, f]⟩ ⟨3, ![n, e, 1]⟩ ⟨2, ![n, e]⟩ := ⟨[], [1], [0], [0], [1], 2, ss, wf⟩ with hD
  unfold Host.gather
  congr 1
  funext a
  refine Fin.ext ?_
  match a with
  | ⟨0, _⟩ =>
    -- the batching axis: no start, no offset, the result's row
    show D.start (ix2 b k) idx 0 + D.batchCoord (ix2 b k) 0 + D.offCoord (ix2 b k) 0 = b.val
    rw [D.start_batching _ _ _ (List.mem_singleton.mpr rfl),
      D.offCoord_eq_zero _ _ (fun h => ((D.mem_sKept _).mp h).2 (List.mem_singleton.mpr rfl))]
    simp only [Nat.zero_add, Nat.add_zero]
    unfold GatherDims.batchCoord
    rw [dif_pos (List.mem_singleton.mpr rfl)]
    rfl
  | ⟨1, _⟩ =>
    -- the collapsed, indexed axis: the clamped start index alone
    show D.start (ix2 b k) idx 1 + D.batchCoord (ix2 b k) 1 + D.offCoord (ix2 b k) 1 = c.val
    rw [hc]
    rw [D.batchCoord_eq_zero _ _ (show (1 : Fin 2) ∉ [(0 : Fin 2)] by decide),
      D.offCoord_eq_zero _ _ (fun h => ((D.mem_sKept _).mp h).1 (List.mem_singleton.mpr rfl))]
    simp only [Nat.add_zero]
    unfold GatherDims.start
    rw [dif_pos (List.mem_singleton.mpr rfl)]
    have hsl : ss 1 = 1 := D.slice_collapsed 1 (List.mem_singleton.mpr rfl)
    have hsi : D.siIdx (ix2 b k) ⟨List.idxOf (1 : Fin 2) D.startIndexMap,
        List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [hsi]
    show min (idx (ix3 b k (0 : Fin 1))).toInt.toNat (f - ss 1) = _
    rw [hsl]

end Gather

/-! ## The taken probabilities, the terms, the rows' losses and the mean -/

/-- The probability taken at (b, k) is the softmax of row b at the clipped class: the range test holds, the gather
    reads row b at the start index, and the clamp leaves a class number alone. -/
theorem taken_apply (Z : Logits) (T : Targets) (b : Fin Pom.NB) (k : Fin 3) :
    taken Z T (ix2 b k) = softmaxRows Z (ix2 b (Pom.clipIdx (cls T (ix2 b k)))) := by
  have hc : (Pom.clipIdx (cls T (ix2 b k))).val
      = min (startIdx T (ix3 b k (0 : Fin 1))).toInt.toNat (7 - 1) := by
    rw [startIdx_apply, Pom.clipW_toInt, Int.toNat_natCast, Pom.clipIdx_val]
    exact (min_eq_left (Pom.clipW_toNat_le _)).symm
  unfold taken
  rw [select_apply, inRange_apply, select_one,
    gather_along_apply _ rfl rfl rfl rfl rfl rfl _ _ _ _ _ hc, probs_eq]

/-- The host's logarithm at an index is the logarithm of the element. -/
theorem hostLog_apply {s : Shape} (x : FVec Ideal s .f32) (i : s.Idx) : Host.log x i = Ideal.log (x i) := rfl

/-- The host's negation at an index is the negation of the element. -/
theorem hostNegf_apply {s : Shape} (x : FVec Ideal s .f32) (i : s.Idx) : Host.negf x i = -(x i) := rfl

/-- The host's quotient at an index is the quotient of the elements. -/
theorem hostDivf_apply {s : Shape} (x y : FVec Ideal s .f32) (i : s.Idx) : Host.divf x y i = Ideal.div (x i) (y i) := rfl

/-- The host's sum over some axes at an index, at the extended reals. -/
theorem hostReduceAdd_apply {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl

/-- The term at (b, k) is the neighbour's term of Spec, on row b's probabilities and the class word. -/
theorem terms_apply (Z : Logits) (T : Targets) (b : Fin Pom.NB) (k : Fin 3) :
    terms Z T (ix2 b k) = Pom.logTerm (fun c => softmaxRows Z (ix2 b c)) (cls T (ix2 b k)) := by
  unfold terms logs
  rw [select_apply, hostLog_apply, addf_apply, taken_apply, valid_apply, bcast0_apply, bcast0_apply]
  show Scalar.select (Pom.validW (cls T (ix2 b k)))
    (Ideal.log (softmaxRows Z (ix2 b (Pom.clipIdx (cls T (ix2 b k)))) + Pom.eps)) (Ideal.ofBits .f32 0x00000000#32) = _
  rw [Ideal.ofBits_zero_f32]
  rfl

/-- Row b's loss: the three terms summed from zero, negated. -/
theorem perRow_apply (Z : Logits) (T : Targets) (b : Fin Pom.NB) : perRow Z T (ix1 b) = Pom.rowLoss Z T b := by
  unfold perRow
  rw [hostNegf_apply, hostSum_eq_rowSum (terms Z T) reducesTo_S4194304x3_S4194304_d1 (by decide) h_S_ b]
  unfold Pom.rowLoss Pom.perSample
  exact congrArg Neg.neg (Finset.sum_congr rfl fun k _ => by rw [terms_apply, cls_apply])

/-- A sum over the indices of a vector is the sum over its coordinates. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- The reference's result is the loss of the two arguments. -/
theorem result_eq (Z : Logits) (T : Targets) : result Z T = fun _ => Pom.total Z T := by
  -- the rows' losses summed from zero over the one axis, over the printed constant
  funext j
  unfold result
  rw [hostDivf_apply, hostReduceAdd_apply, Ideal.hostReduceAdd_total reducesTo_S4194304_S_d0 (fun a => a.elim0),
    constant_apply, constant_apply, Ideal.ofBits_zero_f32, zero_add, sum_idx1]
  unfold Pom.total
  exact congrArg (fun s => Ideal.div s (Ideal.ofBits .f32 0x4A800000#32))
    (Finset.sum_congr rfl fun b _ => perRow_apply Z T b)

end Cert.ReferenceIdeal.RefValue

end
-- ==== Proof.lean ====
/-
  The certificate's claim: a loss averaged over 2^22 rows, computed by a two-by-sixty-four grid of tiles against
  the plain array program.

  For a row of seven logits and a target word, the loss is minus the sum, over the three neighbour classes target - 1,
  target, target + 1, of the logarithm of the softmax probability of the class clipped into [0, 6] plus a small
  constant, a neighbour outside [0, 6] contributing zero (Spec). The reference computes the softmax of all rows, takes
  the three clipped classes' probabilities along the class axis, masks, sums each row, negates, and divides the sum
  of all rows by 2^22 (RefRun, RefRead, RefValue). The kernel lays the classes down the sublanes, walks 128 blocks of
  32768 rows as a 2 x 64 grid, adds each block's loss into its own slot of an 8 x 128 tile per outer coordinate
  (KForms, KBody, KAcc), and the host sums the 16 x 128 array and divides by 2^22 (KFinal). Summing the array is
  summing all rows' losses (Bridge): a regrouping of one finite sum in a commutative monoid, so the two results
  are the same extended real for every input, and the precondition is not needed.
-/
import proofs.«405338_j9732395893213_2_alg».proof.Defs
import proofs.«405338_j9732395893213_2_alg».proof.Proof.Gen.Kernel
import proofs.«405338_j9732395893213_2_alg».proof.Proof.Gen.Kernel.Frame
import proofs.«405338_j9732395893213_2_alg».proof.Proof.Gen.KernelIdeal
import proofs.«405338_j9732395893213_2_alg».proof.Proof.Gen.KernelIdeal.Frame
import proofs.«405338_j9732395893213_2_alg».proof.Proof.Gen.ReferenceIdeal
import proofs.«405338_j9732395893213_2_alg».proof.Proof.Gen.Pre_finite_inputs
import proofs.«405338_j9732395893213_2_alg».proof.Proof.KForms
import proofs.«405338_j9732395893213_2_alg».proof.Proof.KFinal
import proofs.«405338_j9732395893213_2_alg».proof.Proof.RefRead
import proofs.«405338_j9732395893213_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRead.run m ρ)

/-- The idealization rewrote nothing. -/
theorem preserves : Cert.preserves_Kernel_KernelIdeal := trivial

/-- Both programs end at the loss of the two arguments. -/
theorem algebraic : Cert.algebraic_KernelIdeal_ReferenceIdeal := by
  intro m ρ m' ρ' _ hagree
  refine ⟨fun c => fun _ => Pom.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KFinal.run m ρ Cert.KernelIdeal.KForms.storedSpec, ?_⟩
  refine (θ_run Cert.ReferenceIdeal.defs _ _).mono (fun _ h c => ⟨(h c).1.trans ?_, (h c).2⟩)
    (Cert.ReferenceIdeal.RefRead.run m' ρ')
  rw [Cert.ReferenceIdeal.RefValue.result_eq, (hagree c).1, (hagree c).2]
  rfl

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
